-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32000x768 : Shape := ⟨2, ![32000, 768]⟩
abbrev S16x50x768 : Shape := ⟨3, ![16, 50, 768]⟩
abbrev S16x128 : Shape := ⟨2, ![16, 128]⟩
abbrev S768 : Shape := ⟨1, ![768]⟩
abbrev S128x768 : Shape := ⟨2, ![128, 768]⟩
abbrev S2x768 : Shape := ⟨2, ![2, 768]⟩
abbrev S_ : Shape := ⟨0, ![]⟩

class Facts : Prop where
  bcast_S_S32000x768 : S_.BroadcastsInDim S32000x768 (![] : Fin 0 → Fin S32000x768.rank)
  reducesTo_S32000x768_S_d0_1 : S32000x768.ReducesTo [0, 1] S_
  h_S_ : 0 < S_.numel
  bcast_S_S16x50x768 : S_.BroadcastsInDim S16x50x768 (![] : Fin 0 → Fin S16x50x768.rank)
  reducesTo_S16x50x768_S_d0_1_2 : S16x50x768.ReducesTo [0, 1, 2] S_
  bcast_S_S768 : S_.BroadcastsInDim S768 (![] : Fin 0 → Fin S768.rank)
  reducesTo_S768_S_d0 : S768.ReducesTo [0] S_
  bcast_S_S128x768 : S_.BroadcastsInDim S128x768 (![] : Fin 0 → Fin S128x768.rank)
  reducesTo_S128x768_S_d0_1 : S128x768.ReducesTo [0, 1] S_
  bcast_S_S2x768 : S_.BroadcastsInDim S2x768 (![] : Fin 0 → Fin S2x768.rank)
  reducesTo_S2x768_S_d0_1 : S2x768.ReducesTo [0, 1] S_

variable [Facts]

def fn_part2 {F : FTy → Type} [FloatOps F] (main_arg8 : FVec F S2x768 .f32) (main_arg9 : FVec F S768 .f32) (main_arg10 : FVec F S768 .f32) (main_v33 : IVec S_ 1) : IVec S_ 1 :=
  let main_v34 : FVec F S2x768 .f32 := Host.absf main_arg8
  let main_cst_12 : FVec F S_ .f32 := constant S_ .f32 0x7F800000#32
  let main_v35 : FVec F S2x768 .f32 := broadcastInDim S2x768 ![] bcast_S_S2x768 main_cst_12
  let main_v36 : IVec S2x768 1 := cmpf .olt main_v34 main_v35
  let main_c_13 : IVec S_ 1 := constantI S_ 1 1#1
  let main_v37 : IVec S_ 1 := (fun x v => Host.reduce IntOp.andi x v reducesTo_S2x768_S_d0_1 h_S_) main_v36 main_c_13
  let main_v38 : IVec S_ 1 := andi main_v33 main_v37
  let main_v39 : FVec F S768 .f32 := Host.absf main_arg9
  let main_cst_14 : FVec F S_ .f32 := constant S_ .f32 0x7F800000#32
  let main_v40 : FVec F S768 .f32 := broadcastInDim S768 ![] bcast_S_S768 main_cst_14
  let main_v41 : IVec S768 1 := cmpf .olt main_v39 main_v40
  let main_c_15 : IVec S_ 1 := constantI S_ 1 1#1
  let main_v42 : IVec S_ 1 := (fun x v => Host.reduce IntOp.andi x v reducesTo_S768_S_d0 h_S_) main_v41 main_c_15
  let main_v43 : IVec S_ 1 := andi main_v38 main_v42
  let main_v44 : FVec F S768 .f32 := Host.absf main_arg10
  let main_cst_16 : FVec F S_ .f32 := constant S_ .f32 0x7F800000#32
  let main_v45 : FVec F S768 .f32 := broadcastInDim S768 ![] bcast_S_S768 main_cst_16
  let main_v46 : IVec S768 1 := cmpf .olt main_v44 main_v45
  let main_c_17 : IVec S_ 1 := constantI S_ 1 1#1
  let main_v47 : IVec S_ 1 := (fun x v => Host.reduce IntOp.andi x v reducesTo_S768_S_d0 h_S_) main_v46 main_c_17
  let main_v48 : IVec S_ 1 := andi main_v43 main_v47
  main_v48

def fn_part1 {F : FTy → Type} [FloatOps F] (main_arg5 : FVec F S768 .f32) (main_arg6 : FVec F S768 .f32) (main_arg7 : FVec F S128x768 .f32) (main_arg8 : FVec F S2x768 .f32) (main_arg9 : FVec F S768 .f32) (main_arg10 : FVec F S768 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768 .f32 := Host.absf main_arg5
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768 .f32 := Host.absf main_arg6
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  let main_v29 : FVec F S128x768 .f32 := Host.absf main_arg7
  let main_cst_10 : FVec F S_ .f32 := constant S_ .f32 0x7F800000#32
  let main_v30 : FVec F S128x768 .f32 := broadcastInDim S128x768 ![] bcast_S_S128x768 main_cst_10
  let main_v31 : IVec S128x768 1 := cmpf .olt main_v29 main_v30
  let main_c_11 : IVec S_ 1 := constantI S_ 1 1#1
  let main_v32 : IVec S_ 1 := (fun x v => Host.reduce IntOp.andi x v reducesTo_S128x768_S_d0_1 h_S_) main_v31 main_c_11
  let main_v33 : IVec S_ 1 := andi main_v28 main_v32
  fn_part2 (F := F) main_arg8 main_arg9 main_arg10 main_v33

def fn {F : FTy → Type} [FloatOps F] (main_arg0 : FVec F S32000x768 .f32) (main_arg1 : FVec F S16x50x768 .f32) (main_arg2 : IVec S16x128 32) (main_arg3 : FVec F S768 .f32) (main_arg4 : FVec F S768 .f32) (main_arg5 : FVec F S768 .f32) (main_arg6 : FVec F S768 .f32) (main_arg7 : FVec F S128x768 .f32) (main_arg8 : FVec F S2x768 .f32) (main_arg9 : FVec F S768 .f32) (main_arg10 : FVec F S768 .f32) : IVec S_ 1 :=
  let main_v0 : FVec F S32000x768 .f32 := Host.absf main_arg0
  let main_cst : FVec F S_ .f32 := constant S_ .f32 0x7F800000#32
  let main_v1 : FVec F S32000x768 .f32 := broadcastInDim S32000x768 ![] bcast_S_S32000x768 main_cst
  let main_v2 : IVec S32000x768 1 := cmpf .olt main_v0 main_v1
  let main_c : IVec S_ 1 := constantI S_ 1 1#1
  let main_v3 : IVec S_ 1 := (fun x v => Host.reduce IntOp.andi x v reducesTo_S32000x768_S_d0_1 h_S_) main_v2 main_c
  let main_v4 : FVec F S16x50x768 .f32 := Host.absf main_arg1
  let main_cst_0 : FVec F S_ .f32 := constant S_ .f32 0x7F800000#32
  let main_v5 : FVec F S16x50x768 .f32 := broadcastInDim S16x50x768 ![] bcast_S_S16x50x768 main_cst_0
  let main_v6 : IVec S16x50x768 1 := cmpf .olt main_v4 main_v5
  let main_c_1 : IVec S_ 1 := constantI S_ 1 1#1
  let main_v7 : IVec S_ 1 := (fun x v => Host.reduce IntOp.andi x v reducesTo_S16x50x768_S_d0_1_2 h_S_) main_v6 main_c_1
  let main_v8 : IVec S_ 1 := andi main_v3 main_v7
  let main_v9 : FVec F S768 .f32 := Host.absf main_arg3
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768 .f32 := Host.absf main_arg4
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg5 main_arg6 main_arg7 main_arg8 main_arg9 main_arg10 main_v13 main_v16
-- ==== Kernel.lean ====
abbrev S32000x768 : Shape := ⟨2, ![32000, 768]⟩
abbrev S16x50x768 : Shape := ⟨3, ![16, 50, 768]⟩
abbrev S16x128 : Shape := ⟨2, ![16, 128]⟩
abbrev S768 : Shape := ⟨1, ![768]⟩
abbrev S128x768 : Shape := ⟨2, ![128, 768]⟩
abbrev S2x768 : Shape := ⟨2, ![2, 768]⟩
abbrev S_ : Shape := ⟨0, ![]⟩
abbrev S128 : Shape := ⟨1, ![128]⟩
abbrev S128x1 : Shape := ⟨2, ![128, 1]⟩
abbrev S1x768 : Shape := ⟨2, ![1, 768]⟩
abbrev S32000x6x128 : Shape := ⟨3, ![32000, 6, 128]⟩
abbrev S16x50x6x128 : Shape := ⟨4, ![16, 50, 6, 128]⟩
abbrev S128x6x128 : Shape := ⟨3, ![128, 6, 128]⟩
abbrev S16x128x6x128 : Shape := ⟨4, ![16, 128, 6, 128]⟩
abbrev S1x6x128 : Shape := ⟨3, ![1, 6, 128]⟩
abbrev S1x1 : Shape := ⟨2, ![1, 1]⟩
abbrev S1x1x6x128 : Shape := ⟨4, ![1, 1, 6, 128]⟩
abbrev S1 : Shape := ⟨1, ![1]⟩
abbrev S16x128x768 : Shape := ⟨3, ![16, 128, 768]⟩

abbrev nBuf : Space → Nat
  | .hbm => 84
  | .vmem => 12
  | .smem => 3
  | _ => 0

abbrev bufTy : (tb : Table) → Fin (tcTables nBuf tb) → BufTy
  | .hbm, ⟨0, _⟩ => ⟨S32000x768, .f32⟩
  | .hbm, ⟨1, _⟩ => ⟨S16x50x768, .f32⟩
  | .hbm, ⟨2, _⟩ => ⟨S16x128, .i32⟩
  | .hbm, ⟨3, _⟩ => ⟨S768, .f32⟩
  | .hbm, ⟨4, _⟩ => ⟨S768, .f32⟩
  | .hbm, ⟨5, _⟩ => ⟨S768, .f32⟩
  | .hbm, ⟨6, _⟩ => ⟨S768, .f32⟩
  | .hbm, ⟨7, _⟩ => ⟨S128x768, .f32⟩
  | .hbm, ⟨8, _⟩ => ⟨S2x768, .f32⟩
  | .hbm, ⟨9, _⟩ => ⟨S768, .f32⟩
  | .hbm, ⟨10, _⟩ => ⟨S768, .f32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S16x128, .i32⟩
  | .hbm, ⟨15, _⟩ => ⟨S16x128, .i32⟩
  | .hbm, ⟨16, _⟩ => ⟨S_, .i32⟩
  | .hbm, ⟨17, _⟩ => ⟨S16x128, .i32⟩
  | .hbm, ⟨18, _⟩ => ⟨S_, .i32⟩
  | .hbm, ⟨19, _⟩ => ⟨S16x128, .i32⟩
  | .hbm, ⟨20, _⟩ => ⟨S16x128, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S16x128, .i32⟩
  | .hbm, ⟨25, _⟩ => ⟨S16x128, .i32⟩
  | .hbm, ⟨26, _⟩ => ⟨S_, .i32⟩
  | .hbm, ⟨27, _⟩ => ⟨S16x128, .i32⟩
  | .hbm, ⟨28, _⟩ => ⟨S_, .i32⟩
  | .hbm, ⟨29, _⟩ => ⟨S16x128, .i32⟩
  | .hbm, ⟨30, _⟩ => ⟨S16x128, .i1⟩
  | .hbm, ⟨31, _⟩ => ⟨S128, .i32⟩
  | .hbm, ⟨32, _⟩ => ⟨S_, .i32⟩
  | .hbm, ⟨33, _⟩ => ⟨S128, .i32⟩
  | .hbm, ⟨34, _⟩ => ⟨S128, .i1⟩
  | .hbm, ⟨35, _⟩ => ⟨S128, .i32⟩
  | .hbm, ⟨36, _⟩ => ⟨S_, .i32⟩
  | .hbm, ⟨37, _⟩ => ⟨S128, .i32⟩
  | .hbm, ⟨38, _⟩ => ⟨S128, .i1⟩
  | .hbm, ⟨39, _⟩ => ⟨S_, .i32⟩
  | .hbm, ⟨40, _⟩ => ⟨S128, .i32⟩
  | .hbm, ⟨41, _⟩ => ⟨S128, .i32⟩
  | .hbm, ⟨42, _⟩ => ⟨S128, .i32⟩
  | .hbm, ⟨43, _⟩ => ⟨S128x1, .i32⟩
  | .hbm, ⟨44, _⟩ => ⟨S128x768, .f32⟩
  | .hbm, ⟨45, _⟩ => ⟨S128x768, .f32⟩
  | .hbm, ⟨46, _⟩ => ⟨S_, .f32⟩
  | .hbm, ⟨47, _⟩ => ⟨S128, .f32⟩
  | .hbm, ⟨48, _⟩ => ⟨S128x1, .f32⟩
  | .hbm, ⟨49, _⟩ => ⟨S_, .f32⟩
  | .hbm, ⟨50, _⟩ => ⟨S128x1, .f32⟩
  | .hbm, ⟨51, _⟩ => ⟨S128x1, .f32⟩
  | .hbm, ⟨52, _⟩ => ⟨S128x768, .f32⟩
  | .hbm, ⟨53, _⟩ => ⟨S128x768, .f32⟩
  | .hbm, ⟨54, _⟩ => ⟨S128x768, .f32⟩
  | .hbm, ⟨55, _⟩ => ⟨S_, .f32⟩
  | .hbm, ⟨56, _⟩ => ⟨S128, .f32⟩
  | .hbm, ⟨57, _⟩ => ⟨S128x1, .f32⟩
  | .hbm, ⟨58, _⟩ => ⟨S_, .f32⟩
  | .hbm, ⟨59, _⟩ => ⟨S128x1, .f32⟩
  | .hbm, ⟨60, _⟩ => ⟨S128x1, .f32⟩
  | .hbm, ⟨61, _⟩ => ⟨S128x768, .f32⟩
  | .hbm, ⟨62, _⟩ => ⟨S128x768, .f32⟩
  | .hbm, ⟨63, _⟩ => ⟨S_, .f32⟩
  | .hbm, ⟨64, _⟩ => ⟨S128x1, .f32⟩
  | .hbm, ⟨65, _⟩ => ⟨S128x1, .f32⟩
  | .hbm, ⟨66, _⟩ => ⟨S128x1, .f32⟩
  | .hbm, ⟨67, _⟩ => ⟨S128x768, .f32⟩
  | .hbm, ⟨68, _⟩ => ⟨S128x768, .f32⟩
  | .hbm, ⟨69, _⟩ => ⟨S1x768, .f32⟩
  | .hbm, ⟨70, _⟩ => ⟨S128x768, .f32⟩
  | .hbm, ⟨71, _⟩ => ⟨S128x768, .f32⟩
  | .hbm, ⟨72, _⟩ => ⟨S1x768, .f32⟩
  | .hbm, ⟨73, _⟩ => ⟨S128x768, .f32⟩
  | .hbm, ⟨74, _⟩ => ⟨S128x768, .f32⟩
  | .hbm, ⟨75, _⟩ => ⟨S1x768, .f32⟩
  | .hbm, ⟨76, _⟩ => ⟨S1x768, .f32⟩
  | .hbm, ⟨77, _⟩ => ⟨S1x768, .f32⟩
  | .hbm, ⟨78, _⟩ => ⟨S1x768, .f32⟩
  | .hbm, ⟨79, _⟩ => ⟨S32000x6x128, .f32⟩
  | .hbm, ⟨80, _⟩ => ⟨S16x50x6x128, .f32⟩
  | .hbm, ⟨81, _⟩ => ⟨S128x6x128, .f32⟩
  | .hbm, ⟨82, _⟩ => ⟨S16x128x6x128, .f32⟩
  | .hbm, ⟨83, _⟩ => ⟨S16x128x768, .f32⟩
  | .local _ .vmem, ⟨0, _⟩ => ⟨S1x6x128, .f32⟩
  | .local _ .vmem, ⟨1, _⟩ => ⟨S1x6x128, .f32⟩
  | .local _ .vmem, ⟨2, _⟩ => ⟨S1x1x6x128, .f32⟩
  | .local _ .vmem, ⟨3, _⟩ => ⟨S1x1x6x128, .f32⟩
  | .local _ .vmem, ⟨4, _⟩ => ⟨S1x6x128, .f32⟩
  | .local _ .vmem, ⟨5, _⟩ => ⟨S1x6x128, .f32⟩
  | .local _ .vmem, ⟨6, _⟩ => ⟨S1x768, .f32⟩
  | .local _ .vmem, ⟨7, _⟩ => ⟨S1x768, .f32⟩
  | .local _ .vmem, ⟨8, _⟩ => ⟨S1x768, .f32⟩
  | .local _ .vmem, ⟨9, _⟩ => ⟨S1x768, .f32⟩
  | .local _ .vmem, ⟨10, _⟩ => ⟨S1x1x6x128, .f32⟩
  | .local _ .vmem, ⟨11, _⟩ => ⟨S1x1x6x128, .f32⟩
  | .local _ .smem, ⟨0, _⟩ => ⟨S16x128, .i32⟩
  | .local _ .smem, ⟨1, _⟩ => ⟨S16x128, .i32⟩
  | .local _ .smem, ⟨2, _⟩ => ⟨S16x128, .i32⟩
  | _, _ => ⟨S32000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_c_1 : Ref sig .tc := ⟨.hbm, 18, rfl⟩
abbrev main_v1 : Ref sig .tc := ⟨.hbm, 19, rfl⟩
abbrev main_v2 : Ref sig .tc := ⟨.hbm, 20, rfl⟩
abbrev main_c_2 : Ref sig .tc := ⟨.hbm, 21, rfl⟩
abbrev main_c_3 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_c_4 : Ref sig .tc := ⟨.hbm, 28, rfl⟩
abbrev main_v4 : Ref sig .tc := ⟨.hbm, 29, rfl⟩
abbrev main_v5 : Ref sig .tc := ⟨.hbm, 30, rfl⟩
abbrev main_v7 : Ref sig .tc := ⟨.hbm, 31, rfl⟩
abbrev main_c_5 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_c_6 : Ref sig .tc := ⟨.hbm, 36, rfl⟩
abbrev main_v11 : Ref sig .tc := ⟨.hbm, 37, rfl⟩
abbrev main_v12 : Ref sig .tc := ⟨.hbm, 38, rfl⟩
abbrev main_c_7 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst : Ref sig .tc := ⟨.hbm, 46, rfl⟩
abbrev main_v19 : Ref sig .tc := ⟨.hbm, 47, rfl⟩
abbrev main_v20 : Ref sig .tc := ⟨.hbm, 48, rfl⟩
abbrev main_cst_8 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_cst_9 : Ref sig .tc := ⟨.hbm, 55, rfl⟩
abbrev main_v26 : Ref sig .tc := ⟨.hbm, 56, rfl⟩
abbrev main_v27 : Ref sig .tc := ⟨.hbm, 57, rfl⟩
abbrev main_cst_10 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_cst_11 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v0 : Ref sig .tc := ⟨.smem, 0, rfl⟩
abbrev main_v3 : Ref sig .tc := ⟨.smem, 1, rfl⟩
abbrev main_v6 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![16, 128], ![false, false]⟩

abbrev pre0 : Pipeline.Prefetch sig := ⟨3, ![main_v0.idx, main_v3.idx, main_v6.idx], fun | 0 => main_v0.names | 1 => main_v3.names | 2 => main_v6.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 2 → Nat :=
  let arg0 : BitVec 32 := BitVec.ofNat 32 (i 0).val
  let v0 : Index := Scalar.indexCast arg0
  let arg1 : BitVec 32 := BitVec.ofNat 32 (i 1).val
  let v1 : Index := Scalar.indexCast arg1
  ![v0.toNat, v1.toNat]
def cc0_transform_0 (k0_off1_inb : ∀ i : grid0.Coords, ∀ a, (k0_off1 i) a + S1x1.size a ≤ S16x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : Index := Scalar.indexCast arg1
  let v2 : BitVec 32 := pf.at 0 (Rect.unit (s := S16x128) ![v0.toNat, v1.toNat] S1x1.size (k0_off1_inb i)) numel1_S1x1
  let c0_i32 : BitVec 32 := 0#32
  let c0_i32_0 : BitVec 32 := 0#32
  let c0_i32_1 : BitVec 32 := 0#32
  ![v2.toNat, c0_i32.toNat, c0_i32_0.toNat]

def cc0_transform_1 (k0_off1_inb : ∀ i : grid0.Coords, ∀ a, (k0_off1 i) a + S1x1.size a ≤ S16x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : Index := Scalar.indexCast arg1
  let v2 : BitVec 32 := pf.at 1 (Rect.unit (s := S16x128) ![v0.toNat, v1.toNat] S1x1.size (k0_off1_inb i)) numel1_S1x1
  let c0_i32 : BitVec 32 := 0#32
  let c0_i32_0 : BitVec 32 := 0#32
  let c0_i32_1 : BitVec 32 := 0#32
  ![arg0.toNat, v2.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x6x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x6x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x6x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bcast_S_S16x128 : S_.BroadcastsInDim S16x128 (![] : Fin 0 → Fin S16x128.rank)
  natLt_1_32 : 1 < 32
  bcast_S_S128 : S_.BroadcastsInDim S128 (![] : Fin 0 → Fin S128.rank)
  bcast_S128_S128x1_0 : S128.BroadcastsInDim S128x1 (![0] : Fin 1 → Fin S128x1.rank)
  reducesTo_S128x768_S128_d1 : S128x768.ReducesTo [1] S128
  h_S_ : 0 < S_.numel
  bcast_S_S128x1 : S_.BroadcastsInDim S128x1 (![] : Fin 0 → Fin S128x1.rank)
  bcast_S128x1_S128x768_0_1 : S128x1.BroadcastsInDim S128x768 (![0, 1] : Fin 2 → Fin S128x768.rank)
  bcast_S768_S1x768_1 : S768.BroadcastsInDim S1x768 (![1] : Fin 1 → Fin S1x768.rank)
  bcast_S1x768_S128x768_0_1 : S1x768.BroadcastsInDim S128x768 (![0, 1] : Fin 2 → Fin S128x768.rank)
  shapeCasts_S768_S1x768 : S768.ShapeCasts S1x768
  shapeCasts_S32000x768_S32000x6x128 : S32000x768.ShapeCasts S32000x6x128
  shapeCasts_S16x50x768_S16x50x6x128 : S16x50x768.ShapeCasts S16x50x6x128
  shapeCasts_S128x768_S128x6x128 : S128x768.ShapeCasts S128x6x128
  numel1_S1x1 : S1x1.numel = 1
  inb_S1x6x128_S1x6x128_0_0_0 : ∀ a, (![0, 0, 0] : Fin 3 → Nat) a + S1x6x128.size a ≤ S1x6x128.size a
  h_S1x6x128 : 0 < S1x6x128.numel
  shapeCasts_S1x6x128_S1x6x128 : S1x6x128.ShapeCasts S1x6x128
  shapeCasts_S1x6x128_S1x768 : S1x6x128.ShapeCasts S1x768
  inb_S1x1x6x128_S1x1x6x128_0_0_0_0 : ∀ a, (![0, 0, 0, 0] : Fin 4 → Nat) a + S1x1x6x128.size a ≤ S1x1x6x128.size a
  h_S1x1x6x128 : 0 < S1x1x6x128.numel
  shapeCasts_S1x1x6x128_S1x1x6x128 : S1x1x6x128.ShapeCasts S1x1x6x128
  shapeCasts_S1x1x6x128_S1x768 : S1x1x6x128.ShapeCasts S1x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  reduces_S1x768_S1 : S1x768.Reduces [1] S1
  shapeCasts_S1_S1x1 : S1.ShapeCasts S1x1
  broadcasts_S1x1_S1x768 : S1x1.Broadcasts S1x768
  shapeCasts_S1x768_S1x1x6x128 : S1x768.ShapeCasts S1x1x6x128
  shapeCasts_S16x128x6x128_S16x128x768 : S16x128x6x128.ShapeCasts S16x128x768
  gather_S2x768_S128x1_S128x768_1_0_n_n_0_1_1768_wf : GatherDims.WF S2x768 S128x1 S128x768 [1] [0] [] [0] [] 1 ![1, 768]
  hrank0 : 0 < grid0.rank
  k0_off1_inb : ∀ i : grid0.Coords, ∀ a, (k0_off1 i) a + S1x1.size a ≤ S16x128.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1x1 pf i = cc0_transform_0 k0_off1_inb numel1_S1x1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1x1 pf i = cc0_transform_1 k0_off1_inb numel1_S1x1 pf i'
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x6x128.size a ≤ S128x6x128.size a
  hwx0_2 : ∀ i : grid0.Coords, EltTy.bits .f32 = 32 ∨ (Rect.block (s := S128x6x128) S1x6x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x768.size a ≤ S1x768.size a
  hwx0_5 : ∀ i : grid0.Coords, EltTy.bits .f32 = 32 ∨ (Rect.block (s := S1x768) S1x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x768.size a ≤ S1x768.size a
  hwx0_6 : ∀ i : grid0.Coords, EltTy.bits .f32 = 32 ∨ (Rect.block (s := S1x768) S1x768.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x6x128.size a ≤ S16x128x6x128.size a
  hwx0_7 : ∀ i : grid0.Coords, EltTy.bits .f32 = 32 ∨ (Rect.block (s := S16x128x6x128) S1x1x6x128.size (cc0_transform_7 i) (hinb0_7 i)).WholeWords (EltTy.packing .f32)

variable [Facts₀]

def gather_S2x768_S128x1_S128x768_1_0_n_n_0_1_1768 : GatherDims S2x768 S128x1 S128x768 where
  offsetDims := [1]
  collapsedSliceDims := [0]
  operandBatchingDims := []
  startIndicesBatchingDims := []
  startIndexMap := [0]
  indexVectorDim := 1
  sliceSizes := ![1, 768]
  wf := gather_S2x768_S128x1_S128x768_1_0_n_n_0_1_1768_wf

abbrev spec0_0 : Pipeline.WinSpec sig grid0.rank :=
  Pipeline.WinSpec.ofSpec (Memref.whole main_v47) S1x6x128.size reads0_0 false false 2 stage0_0 sem0_0 nbuf0_0 hstage0_0

abbrev spec0_1 : Pipeline.WinSpec sig grid0.rank :=
  Pipeline.WinSpec.ofSpec (Memref.whole main_v48) S1x1x6x128.size reads0_1 false false 2 stage0_1 sem0_1 nbuf0_1 hstage0_1

abbrev spec0_2 : Pipeline.WinSpec sig grid0.rank :=
  Pipeline.WinSpec.ofSpec (Memref.whole main_v49) S1x6x128.size reads0_2 false false 2 stage0_2 sem0_2 nbuf0_2 hstage0_2

abbrev spec0_3 : Pipeline.WinSpec sig grid0.rank :=
  Pipeline.WinSpec.ofSpec (Memref.whole main_v43) S1x768.size reads0_3 false true 1 stage0_3 sem0_3 nbuf0_3 hstage0_3

abbrev spec0_4 : Pipeline.WinSpec sig grid0.rank :=
  Pipeline.WinSpec.ofSpec (Memref.whole main_v44) S1x768.size reads0_4 false true 1 stage0_4 sem0_4 nbuf0_4 hstage0_4

abbrev spec0_5 : Pipeline.WinSpec sig grid0.rank :=
  Pipeline.WinSpec.ofSpec (Memref.whole main_v45) S1x768.size reads0_5 false true 1 stage0_5 sem0_5 nbuf0_5 hstage0_5

abbrev spec0_6 : Pipeline.WinSpec sig grid0.rank :=
  Pipeline.WinSpec.ofSpec (Memref.whole main_v46) S1x768.size reads0_6 false true 1 stage0_6 sem0_6 nbuf0_6 hstage0_6

abbrev spec0_7 : Pipeline.WinSpec sig grid0.rank :=
  Pipeline.WinSpec.ofSpec (Memref.whole main_v50) S1x1x6x128.size reads0_7 true false 2 stage0_7 sem0_7 nbuf0_7 hstage0_7

abbrev spec0 : Fin 8 → Pipeline.WinSpec sig grid0.rank := fun | 0 => spec0_0 | 1 => spec0_1 | 2 => spec0_2 | 3 => spec0_3 | 4 => spec0_4 | 5 => spec0_5 | 6 => spec0_6 | 7 => spec0_7 | ⟨_ + 8, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | ⟨_ + 8, h⟩ => absurd h (Nat.not_lt.2 (Nat.le_add_left _ _))
abbrev ix0 (pf : pre0.Contents (Elt F)) : (w : Fin 8) → grid0.Coords → Fin (spec0 w).shape.rank → Nat := fun | 0 => cc0_transform_0 k0_off1_inb numel1_S1x1 pf | 1 => cc0_transform_1 k0_off1_inb numel1_S1x1 pf | 2 => cc0_transform_2 | 3 => cc0_transform_3 | 4 => cc0_transform_4 | 5 => cc0_transform_5 | 6 => cc0_transform_6 | 7 => cc0_transform_7 | ⟨_ + 8, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 | 3 => hreads0_3 | 4 => hreads0_4 | 5 => hreads0_5 | 6 => hreads0_6 | 7 => hreads0_7 | ⟨_ + 8, h⟩ => absurd h (Nat.not_lt.2 (Nat.le_add_left _ _))
def ok0 (pf : pre0.Contents (Elt F)) : Prop :=
  (∀ i : grid0.Coords, ∃ h : (∀ a, (cc0_transform_0 k0_off1_inb numel1_S1x1 pf i a + 1) * S1x6x128.size a ≤ S32000x6x128.size a), EltTy.bits .f32 = 32 ∨ (Rect.block (s := S32000x6x128) S1x6x128.size (cc0_transform_0 k0_off1_inb numel1_S1x1 pf i) h).WholeWords (EltTy.packing .f32)) ∧
  (∀ i : grid0.Coords, ∃ h : (∀ a, (cc0_transform_1 k0_off1_inb numel1_S1x1 pf i a + 1) * S1x1x6x128.size a ≤ S16x50x6x128.size a), EltTy.bits .f32 = 32 ∨ (Rect.block (s := S16x50x6x128) S1x1x6x128.size (cc0_transform_1 k0_off1_inb numel1_S1x1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2 i).elim fun h _ => h a | 2 => hinb0_2 | 3 => hinb0_3 | 4 => hinb0_4 | 5 => hinb0_5 | 6 => hinb0_6 | 7 => hinb0_7 | ⟨_ + 8, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2 i).elim fun _ h => h | 2 => hwx0_2 | 3 => hwx0_3 | 4 => hwx0_4 | 5 => hwx0_5 | 6 => hwx0_6 | 7 => hwx0_7 | ⟨_ + 8, h⟩ => absurd h (Nat.not_lt.2 (Nat.le_add_left _ _))

class Facts : Prop extends Facts₀ where
  harr0 : ∀ w, (spec0 w).arr.IsWhole

variable [Facts]
-- ==== ReferenceIdeal.lean ====
abbrev S32000x768 : Shape := ⟨2, ![32000, 768]⟩
abbrev S16x50x768 : Shape := ⟨3, ![16, 50, 768]⟩
abbrev S16x128 : Shape := ⟨2, ![16, 128]⟩
abbrev S768 : Shape := ⟨1, ![768]⟩
abbrev S128x768 : Shape := ⟨2, ![128, 768]⟩
abbrev S2x768 : Shape := ⟨2, ![2, 768]⟩
abbrev S_ : Shape := ⟨0, ![]⟩
abbrev S32000 : Shape := ⟨1, ![32000]⟩
abbrev S32000x1 : Shape := ⟨2, ![32000, 1]⟩
abbrev S1x768 : Shape := ⟨2, ![1, 768]⟩
abbrev S16x50 : Shape := ⟨2, ![16, 50]⟩
abbrev S16x50x1 : Shape := ⟨3, ![16, 50, 1]⟩
abbrev S1x1x768 : Shape := ⟨3, ![1, 1, 768]⟩
abbrev S16x128x1 : Shape := ⟨3, ![16, 128, 1]⟩
abbrev S16x128x768 : Shape := ⟨3, ![16, 128, 768]⟩
abbrev S1 : Shape := ⟨1, ![1]⟩
abbrev S1x1x1 : Shape := ⟨3, ![1, 1, 1]⟩
abbrev S128 : Shape := ⟨1, ![128]⟩
abbrev S128x1 : Shape := ⟨2, ![128, 1]⟩
abbrev S1x128x768 : Shape := ⟨3, ![1, 128, 768]⟩

abbrev nBuf : Space → Nat
  | .hbm => 182
  | .vmem => 0
  | .smem => 0
  | _ => 0

abbrev hbmTy0_0 (i : Nat) : BufTy := match i % 128 with
  | 0 => ⟨S32000x768, .f32⟩
  | 1 => ⟨S16x50x768, .f32⟩
  | 2 => ⟨S16x128, .i32⟩
  | 3 => ⟨S768, .f32⟩
  | 4 => ⟨S768, .f32⟩
  | 5 => ⟨S768, .f32⟩
  | 6 => ⟨S768, .f32⟩
  | 7 => ⟨S128x768, .f32⟩
  | 8 => ⟨S2x768, .f32⟩
  | 9 => ⟨S768, .f32⟩
  | 10 => ⟨S768, .f32⟩
  | 11 => ⟨S_, .f32⟩
  | 12 => ⟨S32000, .f32⟩
  | 13 => ⟨S32000x1, .f32⟩
  | 14 => ⟨S_, .f32⟩
  | 15 => ⟨S32000x1, .f32⟩
  | 16 => ⟨S32000x1, .f32⟩
  | 17 => ⟨S32000x768, .f32⟩
  | 18 => ⟨S32000x768, .f32⟩
  | 19 => ⟨S32000x768, .f32⟩
  | 20 => ⟨S_, .f32⟩
  | 21 => ⟨S32000, .f32⟩
  | 22 => ⟨S32000x1, .f32⟩
  | 23 => ⟨S_, .f32⟩
  | 24 => ⟨S32000x1, .f32⟩
  | 25 => ⟨S32000x1, .f32⟩
  | 26 => ⟨S32000x768, .f32⟩
  | 27 => ⟨S32000x768, .f32⟩
  | 28 => ⟨S_, .f32⟩
  | 29 => ⟨S32000x1, .f32⟩
  | 30 => ⟨S32000x1, .f32⟩
  | 31 => ⟨S32000x1, .f32⟩
  | 32 => ⟨S32000x768, .f32⟩
  | 33 => ⟨S32000x768, .f32⟩
  | 34 => ⟨S1x768, .f32⟩
  | 35 => ⟨S32000x768, .f32⟩
  | 36 => ⟨S32000x768, .f32⟩
  | 37 => ⟨S1x768, .f32⟩
  | 38 => ⟨S32000x768, .f32⟩
  | 39 => ⟨S32000x768, .f32⟩
  | 40 => ⟨S_, .f32⟩
  | 41 => ⟨S16x50, .f32⟩
  | 42 => ⟨S16x50x1, .f32⟩
  | 43 => ⟨S_, .f32⟩
  | 44 => ⟨S16x50x1, .f32⟩
  | 45 => ⟨S16x50x1, .f32⟩
  | 46 => ⟨S16x50x768, .f32⟩
  | 47 => ⟨S16x50x768, .f32⟩
  | 48 => ⟨S16x50x768, .f32⟩
  | 49 => ⟨S_, .f32⟩
  | 50 => ⟨S16x50, .f32⟩
  | 51 => ⟨S16x50x1, .f32⟩
  | 52 => ⟨S_, .f32⟩
  | 53 => ⟨S16x50x1, .f32⟩
  | 54 => ⟨S16x50x1, .f32⟩
  | 55 => ⟨S16x50x768, .f32⟩
  | 56 => ⟨S16x50x768, .f32⟩
  | 57 => ⟨S_, .f32⟩
  | 58 => ⟨S16x50x1, .f32⟩
  | 59 => ⟨S16x50x1, .f32⟩
  | 60 => ⟨S16x50x1, .f32⟩
  | 61 => ⟨S16x50x768, .f32⟩
  | 62 => ⟨S16x50x768, .f32⟩
  | 63 => ⟨S1x1x768, .f32⟩
  | 64 => ⟨S16x50x768, .f32⟩
  | 65 => ⟨S16x50x768, .f32⟩
  | 66 => ⟨S1x1x768, .f32⟩
  | 67 => ⟨S16x50x768, .f32⟩
  | 68 => ⟨S16x50x768, .f32⟩
  | 69 => ⟨S_, .i32⟩
  | 70 => ⟨S16x128, .i32⟩
  | 71 => ⟨S16x128, .i1⟩
  | 72 => ⟨S_, .i32⟩
  | 73 => ⟨S_, .i32⟩
  | 74 => ⟨S_, .i32⟩
  | 75 => ⟨S16x128, .i32⟩
  | 76 => ⟨S16x128, .i32⟩
  | 77 => ⟨S_, .i32⟩
  | 78 => ⟨S16x128, .i32⟩
  | 79 => ⟨S16x128, .i32⟩
  | 80 => ⟨S_, .i32⟩
  | 81 => ⟨S16x128, .i32⟩
  | 82 => ⟨S16x128, .i1⟩
  | 83 => ⟨S_, .i32⟩
  | 84 => ⟨S16x128, .i32⟩
  | 85 => ⟨S16x128, .i32⟩
  | 86 => ⟨S16x128, .i32⟩
  | 87 => ⟨S16x128x1, .i32⟩
  | 88 => ⟨S16x128x768, .f32⟩
  | 89 => ⟨S_, .i32⟩
  | 90 => ⟨S16x128, .i32⟩
  | 91 => ⟨S16x128, .i32⟩
  | 92 => ⟨S_, .i32⟩
  | 93 => ⟨S_, .i32⟩
  | 94 => ⟨S_, .i32⟩
  | 95 => ⟨S16x128, .i32⟩
  | 96 => ⟨S16x128, .i32⟩
  | 97 => ⟨S_, .i32⟩
  | 98 => ⟨S16x128, .i32⟩
  | 99 => ⟨S16x128, .i32⟩
  | 100 => ⟨S16x128x1, .i32⟩
  | 101 => ⟨S_, .i32⟩
  | 102 => ⟨S16x128x1, .i32⟩
  | 103 => ⟨S16x128x1, .i1⟩
  | 104 => ⟨S_, .i32⟩
  | 105 => ⟨S16x128x1, .i32⟩
  | 106 => ⟨S16x128x1, .i32⟩
  | 107 => ⟨S16x128x1, .i32⟩
  | 108 => ⟨S1, .i32⟩
  | 109 => ⟨S_, .i32⟩
  | 110 => ⟨S16x128x1, .i32⟩
  | 111 => ⟨S16x128x1, .i1⟩
  | 112 => ⟨S1x1x1, .i32⟩
  | 113 => ⟨S16x128x1, .i32⟩
  | 114 => ⟨S16x128x1, .i1⟩
  | 115 => ⟨S16x128x1, .i1⟩
  | 116 => ⟨S_, .i1⟩
  | 117 => ⟨S16x128, .i1⟩
  | 118 => ⟨S16x128x768, .f32⟩
  | 119 => ⟨S16x128x768, .i1⟩
  | 120 => ⟨S_, .f32⟩
  | 121 => ⟨S16x128x768, .f32⟩
  | 122 => ⟨S16x128x768, .f32⟩
  | 123 => ⟨S16x128x1, .i1⟩
  | 124 => ⟨S16x128x768, .i1⟩
  | 125 => ⟨S16x128x768, .f32⟩
  | 126 => ⟨S128, .i32⟩
  | 127 => ⟨S_, .i32⟩
  | _ => ⟨S32000x768, .f32⟩

abbrev hbmTy0_1 (i : Nat) : BufTy := match i % 128 with
  | 0 => ⟨S128, .i32⟩
  | 1 => ⟨S128, .i1⟩
  | 2 => ⟨S_, .i32⟩
  | 3 => ⟨S128, .i32⟩
  | 4 => ⟨S128, .i32⟩
  | 5 => ⟨S128, .i32⟩
  | 6 => ⟨S128x1, .i32⟩
  | 7 => ⟨S128x768, .f32⟩
  | 8 => ⟨S_, .i32⟩
  | 9 => ⟨S128, .i32⟩
  | 10 => ⟨S128, .i1⟩
  | 11 => ⟨S128, .i32⟩
  | 12 => ⟨S_, .i32⟩
  | 13 => ⟨S128, .i32⟩
  | 14 => ⟨S128, .i1⟩
  | 15 => ⟨S_, .i32⟩
  | 16 => ⟨S128, .i32⟩
  | 17 => ⟨S128, .i32⟩
  | 18 => ⟨S128, .i32⟩
  | 19 => ⟨S128x1, .i32⟩
  | 20 => ⟨S128x768, .f32⟩
  | 21 => ⟨S128x768, .f32⟩
  | 22 => ⟨S_, .f32⟩
  | 23 => ⟨S128, .f32⟩
  | 24 => ⟨S128x1, .f32⟩
  | 25 => ⟨S_, .f32⟩
  | 26 => ⟨S128x1, .f32⟩
  | 27 => ⟨S128x1, .f32⟩
  | 28 => ⟨S128x768, .f32⟩
  | 29 => ⟨S128x768, .f32⟩
  | 30 => ⟨S128x768, .f32⟩
  | 31 => ⟨S_, .f32⟩
  | 32 => ⟨S128, .f32⟩
  | 33 => ⟨S128x1, .f32⟩
  | 34 => ⟨S_, .f32⟩
  | 35 => ⟨S128x1, .f32⟩
  | 36 => ⟨S128x1, .f32⟩
  | 37 => ⟨S128x768, .f32⟩
  | 38 => ⟨S128x768, .f32⟩
  | 39 => ⟨S_, .f32⟩
  | 40 => ⟨S128x1, .f32⟩
  | 41 => ⟨S128x1, .f32⟩
  | 42 => ⟨S128x1, .f32⟩
  | 43 => ⟨S128x768, .f32⟩
  | 44 => ⟨S128x768, .f32⟩
  | 45 => ⟨S1x768, .f32⟩
  | 46 => ⟨S128x768, .f32⟩
  | 47 => ⟨S128x768, .f32⟩
  | 48 => ⟨S1x768, .f32⟩
  | 49 => ⟨S128x768, .f32⟩
  | 50 => ⟨S128x768, .f32⟩
  | 51 => ⟨S1x128x768, .f32⟩
  | 52 => ⟨S16x128x768, .f32⟩
  | 53 => ⟨S16x128x768, .f32⟩
  | _ => ⟨S32000x768, .f32⟩

abbrev hbmTy (i : Nat) : BufTy := match i / 128 with
  | 0 => hbmTy0_0 i
  | 1 => hbmTy0_1 i
  | _ => ⟨S32000x768, .f32⟩

abbrev bufTy : (tb : Table) → Fin (tcTables nBuf tb) → BufTy
  | .hbm, ⟨i, _⟩ => hbmTy i
  | _, _ => ⟨S32000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c : Ref sig .tc := ⟨.hbm, 69, rfl⟩
abbrev main_v48 : Ref sig .tc := ⟨.hbm, 70, rfl⟩
abbrev main_v49 : Ref sig .tc := ⟨.hbm, 71, rfl⟩
abbrev main_c_9 : Ref sig .tc := ⟨.hbm, 72, rfl⟩
abbrev main_c_10 : Ref sig .tc := ⟨.hbm, 73, rfl⟩
abbrev main_call0_v0 : Ref sig .tc := ⟨.hbm, 74, rfl⟩
abbrev main_call0_v1 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_v50 : Ref sig .tc := ⟨.hbm, 79, rfl⟩
abbrev main_c_11 : Ref sig .tc := ⟨.hbm, 80, rfl⟩
abbrev main_v51 : Ref sig .tc := ⟨.hbm, 81, rfl⟩
abbrev main_v52 : Ref sig .tc := ⟨.hbm, 82, rfl⟩
abbrev main_c_12 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_c_13 : Ref sig .tc := ⟨.hbm, 89, rfl⟩
abbrev main_v58 : Ref sig .tc := ⟨.hbm, 90, rfl⟩
abbrev main_v59 : Ref sig .tc := ⟨.hbm, 91, rfl⟩
abbrev main_c_14 : Ref sig .tc := ⟨.hbm, 92, rfl⟩
abbrev main_c_15 : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_call1_v3 : Ref sig .tc := ⟨.hbm, 97, rfl⟩
abbrev main_call1_v4 : Ref sig .tc := ⟨.hbm, 98, rfl⟩
abbrev main_v60 : Ref sig .tc := ⟨.hbm, 99, rfl⟩
abbrev main_v61 : Ref sig .tc := ⟨.hbm, 100, rfl⟩
abbrev main_call2_c : Ref sig .tc := ⟨.hbm, 101, rfl⟩
abbrev main_call2_v0 : Ref sig .tc := ⟨.hbm, 102, rfl⟩
abbrev main_call2_v1 : Ref sig .tc := ⟨.hbm, 103, rfl⟩
abbrev main_call2_c_0 : Ref sig .tc := ⟨.hbm, 104, rfl⟩
abbrev main_call2_v2 : Ref sig .tc := ⟨.hbm, 105, rfl⟩
abbrev main_call2_v3 : Ref sig .tc := ⟨.hbm, 106, rfl⟩
abbrev main_call2_v4 : Ref sig .tc := ⟨.hbm, 107, rfl⟩
abbrev main_call2_c_1 : Ref sig .tc := ⟨.hbm, 108, rfl⟩
abbrev main_call2_c_2 : Ref sig .tc := ⟨.hbm, 109, rfl⟩
abbrev main_call2_v5 : Ref sig .tc := ⟨.hbm, 110, rfl⟩
abbrev main_call2_v6 : Ref sig .tc := ⟨.hbm, 111, rfl⟩
abbrev main_call2_v7 : Ref sig .tc := ⟨.hbm, 112, rfl⟩
abbrev main_call2_v8 : Ref sig .tc := ⟨.hbm, 113, rfl⟩
abbrev main_call2_v9 : Ref sig .tc := ⟨.hbm, 114, rfl⟩
abbrev main_call2_v10 : Ref sig .tc := ⟨.hbm, 115, rfl⟩
abbrev main_call2_c_3 : Ref sig .tc := ⟨.hbm, 116, rfl⟩
abbrev main_call2_v11 : Ref sig .tc := ⟨.hbm, 117, rfl⟩
abbrev main_call2_v12 : Ref sig .tc := ⟨.hbm, 118, rfl⟩
abbrev main_call2_v13 : Ref sig .tc := ⟨.hbm, 119, rfl⟩
abbrev main_call2_cst : Ref sig .tc := ⟨.hbm, 120, rfl⟩
abbrev main_call2_v14 : Ref sig .tc := ⟨.hbm, 121, rfl⟩
abbrev main_v62 : Ref sig .tc := ⟨.hbm, 122, rfl⟩
abbrev main_v63 : Ref sig .tc := ⟨.hbm, 123, rfl⟩
abbrev main_call3_v0 : Ref sig .tc := ⟨.hbm, 124, rfl⟩
abbrev main_v64 : Ref sig .tc := ⟨.hbm, 125, rfl⟩
abbrev main_v65 : Ref sig .tc := ⟨.hbm, 126, rfl⟩
abbrev main_c_16 : Ref sig .tc := ⟨.hbm, 127, rfl⟩
abbrev main_v66 : Ref sig .tc := ⟨.hbm, 128, rfl⟩
abbrev main_v67 : Ref sig .tc := ⟨.hbm, 129, rfl⟩
abbrev main_c_17 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_c_18 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_c_19 : Ref sig .tc := ⟨.hbm, 140, rfl⟩
abbrev main_v76 : Ref sig .tc := ⟨.hbm, 141, rfl⟩
abbrev main_v77 : Ref sig .tc := ⟨.hbm, 142, rfl⟩
abbrev main_c_20 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_cst_21 : Ref sig .tc := ⟨.hbm, 150, rfl⟩
abbrev main_v84 : Ref sig .tc := ⟨.hbm, 151, rfl⟩
abbrev main_v85 : Ref sig .tc := ⟨.hbm, 152, rfl⟩
abbrev main_cst_22 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_v90 : Ref sig .tc := ⟨.hbm, 158, rfl⟩
abbrev main_cst_23 : Ref sig .tc := ⟨.hbm, 159, rfl⟩
abbrev main_v91 : Ref sig .tc := ⟨.hbm, 160, rfl⟩
abbrev main_v92 : Ref sig .tc := ⟨.hbm, 161, rfl⟩
abbrev main_cst_24 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_cst_25 : Ref sig .tc := ⟨.hbm, 167, rfl⟩
abbrev main_v97 : Ref sig .tc := ⟨.hbm, 168, rfl⟩
abbrev main_v98 : Ref sig .tc := ⟨.hbm, 169, rfl⟩
abbrev main_v99 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩

abbrev nD : Nat := 1
abbrev τ : Topo := Topo.v7x

variable {F : FTy → Type} [FloatOps F]

class Facts₀ : Prop where
  reducesTo_S32000x768_S32000_d1 : S32000x768.ReducesTo [1] S32000
  h_S_ : 0 < S_.numel
  bcast_S32000_S32000x1_0 : S32000.BroadcastsInDim S32000x1 (![0] : Fin 1 → Fin S32000x1.rank)
  bcast_S_S32000x1 : S_.BroadcastsInDim S32000x1 (![] : Fin 0 → Fin S32000x1.rank)
  bcast_S32000x1_S32000x768_0_1 : S32000x1.BroadcastsInDim S32000x768 (![0, 1] : Fin 2 → Fin S32000x768.rank)
  bcast_S768_S1x768_1 : S768.BroadcastsInDim S1x768 (![1] : Fin 1 → Fin S1x768.rank)
  bcast_S1x768_S32000x768_0_1 : S1x768.BroadcastsInDim S32000x768 (![0, 1] : Fin 2 → Fin S32000x768.rank)
  reducesTo_S16x50x768_S16x50_d2 : S16x50x768.ReducesTo [2] S16x50
  bcast_S16x50_S16x50x1_0_1 : S16x50.BroadcastsInDim S16x50x1 (![0, 1] : Fin 2 → Fin S16x50x1.rank)
  bcast_S_S16x50x1 : S_.BroadcastsInDim S16x50x1 (![] : Fin 0 → Fin S16x50x1.rank)
  bcast_S16x50x1_S16x50x768_0_1_2 : S16x50x1.BroadcastsInDim S16x50x768 (![0, 1, 2] : Fin 3 → Fin S16x50x768.rank)
  bcast_S768_S1x1x768_2 : S768.BroadcastsInDim S1x1x768 (![2] : Fin 1 → Fin S1x1x768.rank)
  bcast_S1x1x768_S16x50x768_0_1_2 : S1x1x768.BroadcastsInDim S16x50x768 (![0, 1, 2] : Fin 3 → Fin S16x50x768.rank)
  bcast_S_S16x128 : S_.BroadcastsInDim S16x128 (![] : Fin 0 → Fin S16x128.rank)
  bcast_S16x128_S16x128x1_0_1 : S16x128.BroadcastsInDim S16x128x1 (![0, 1] : Fin 2 → Fin S16x128x1.rank)
  bcast_S_S16x128x1 : S_.BroadcastsInDim S16x128x1 (![] : Fin 0 → Fin S16x128x1.rank)
  bcast_S1_S1x1x1_2 : S1.BroadcastsInDim S1x1x1 (![2] : Fin 1 → Fin S1x1x1.rank)
  bcast_S1x1x1_S16x128x1_0_1_2 : S1x1x1.BroadcastsInDim S16x128x1 (![0, 1, 2] : Fin 3 → Fin S16x128x1.rank)
  reducesTo_S16x128x1_S16x128_d2 : S16x128x1.ReducesTo [2] S16x128
  bcast_S16x128_S16x128x768_0_1 : S16x128.BroadcastsInDim S16x128x768 (![0, 1] : Fin 2 → Fin S16x128x768.rank)
  bcast_S_S16x128x768 : S_.BroadcastsInDim S16x128x768 (![] : Fin 0 → Fin S16x128x768.rank)
  bcast_S16x128x1_S16x128x768_0_1_2 : S16x128x1.BroadcastsInDim S16x128x768 (![0, 1, 2] : Fin 3 → Fin S16x128x768.rank)
  bcast_S_S128 : S_.BroadcastsInDim S128 (![] : Fin 0 → Fin S128.rank)
  bcast_S128_S128x1_0 : S128.BroadcastsInDim S128x1 (![0] : Fin 1 → Fin S128x1.rank)
  natLt_1_32 : 1 < 32
  reducesTo_S128x768_S128_d1 : S128x768.ReducesTo [1] S128
  bcast_S_S128x1 : S_.BroadcastsInDim S128x1 (![] : Fin 0 → Fin S128x1.rank)
  bcast_S128x1_S128x768_0_1 : S128x1.BroadcastsInDim S128x768 (![0, 1] : Fin 2 → Fin S128x768.rank)
  bcast_S1x768_S128x768_0_1 : S1x768.BroadcastsInDim S128x768 (![0, 1] : Fin 2 → Fin S128x768.rank)
  bcast_S128x768_S1x128x768_1_2 : S128x768.BroadcastsInDim S1x128x768 (![1, 2] : Fin 2 → Fin S1x128x768.rank)
  bcast_S1x128x768_S16x128x768_0_1_2 : S1x128x768.BroadcastsInDim S16x128x768 (![0, 1, 2] : Fin 3 → Fin S16x128x768.rank)
  gather_S32000x768_S16x128x1_S16x128x768_2_0_n_n_0_2_1768_wf : GatherDims.WF S32000x768 S16x128x1 S16x128x768 [2] [0] [] [0] [] 2 ![1, 768]
  gather_S16x50x768_S16x128x1_S16x128x768_2_1_0_0_1_2_11768_wf : GatherDims.WF S16x50x768 S16x128x1 S16x128x768 [2] [1] [0] [1] [0] 2 ![1, 1, 768]
  gather_S128x768_S128x1_S128x768_1_0_n_n_0_1_1768_wf : GatherDims.WF S128x768 S128x1 S128x768 [1] [0] [] [0] [] 1 ![1, 768]
  gather_S2x768_S128x1_S128x768_1_0_n_n_0_1_1768_wf : GatherDims.WF S2x768 S128x1 S128x768 [1] [0] [] [0] [] 1 ![1, 768]

variable [Facts₀]

def gather_S32000x768_S16x128x1_S16x128x768_2_0_n_n_0_2_1768 : GatherDims S32000x768 S16x128x1 S16x128x768 where
  offsetDims := [2]
  collapsedSliceDims := [0]
  operandBatchingDims := []
  startIndicesBatchingDims := []
  startIndexMap := [0]
  indexVectorDim := 2
  sliceSizes := ![1, 768]
  wf := gather_S32000x768_S16x128x1_S16x128x768_2_0_n_n_0_2_1768_wf
def gather_S16x50x768_S16x128x1_S16x128x768_2_1_0_0_1_2_11768 : GatherDims S16x50x768 S16x128x1 S16x128x768 where
  offsetDims := [2]
  collapsedSliceDims := [1]
  operandBatchingDims := [0]
  startIndicesBatchingDims := [0]
  startIndexMap := [1]
  indexVectorDim := 2
  sliceSizes := ![1, 1, 768]
  wf := gather_S16x50x768_S16x128x1_S16x128x768_2_1_0_0_1_2_11768_wf
def gather_S128x768_S128x1_S128x768_1_0_n_n_0_1_1768 : GatherDims S128x768 S128x1 S128x768 where
  offsetDims := [1]
  collapsedSliceDims := [0]
  operandBatchingDims := []
  startIndicesBatchingDims := []
  startIndexMap := [0]
  indexVectorDim := 1
  sliceSizes := ![1, 768]
  wf := gather_S128x768_S128x1_S128x768_1_0_n_n_0_1_1768_wf
def gather_S2x768_S128x1_S128x768_1_0_n_n_0_1_1768 : GatherDims S2x768 S128x1 S128x768 where
  offsetDims := [1]
  collapsedSliceDims := [0]
  operandBatchingDims := []
  startIndicesBatchingDims := []
  startIndexMap := [0]
  indexVectorDim := 1
  sliceSizes := ![1, 768]
  wf := gather_S2x768_S128x1_S128x768_1_0_n_n_0_1_1768_wf

class Facts : Prop extends Facts₀ where

variable [Facts]
-- ==== Proof.Spec.lean ====
/-
  The function both programs compute, over the extended reals.

  A token's id is a signed 32-bit word `w`. Its embedding row comes from the shared vocabulary table when
  `w < 32000`, at row `clip w 0 31999`, and otherwise from its batch's OCR table, at row
  `clip (w − 32000) 0 49`. The row is layer-normalised over its 768 entries: the mean and the variance are sums
  divided by 768, the row minus its mean is scaled by the inverse root of the variance plus ε, then by the table's
  scale, and shifted by the table's shift. To that the position's row of a [128 × 768] table is added.

  LayerNorm acts on each row by itself, so the normalised picked row is the picked row of the normalised table:
  that is the whole reason the two programs agree, and why this specification is stated on the picked row.
-/
import Idealize.ShloMosaic.PureOps.Ideal
import Idealize.ShloMosaic.Lib.ValueIdx

noncomputable section

namespace Cert.Embed

open Idealize.ShloMosaic Idealize.ShloMosaic.ValueIdx

/-! ## LayerNorm of one row of 768 entries -/

/-- The row's length, 768, as the f32 word both programs divide by. -/
def width : EReal := Ideal.ofBits .f32 0x44400000#32
/-- The f32 word nearest 1e-5 that both programs add to the variance. -/
def eps : EReal := Ideal.ofBits .f32 0x3727C5AC#32

/-- The mean of a row: its sum over 768. -/
def rowMean (x : Fin 768 → EReal) : EReal := Ideal.div (∑ k : Fin 768, x k) width
/-- The variance of a row: the sum of the squared deviations from the mean, over 768. -/
def rowVar (x : Fin 768 → EReal) : EReal :=
  Ideal.div (∑ k : Fin 768, (x k - rowMean x) * (x k - rowMean x)) width
/-- Entry `h` of the layer-normalised row, with scale `g` and shift `b`. -/
def lnRow (x g b : Fin 768 → EReal) (h : Fin 768) : EReal :=
  (x h - rowMean x) * Ideal.rsqrt (rowVar x + eps) * g h + b h

/-! ## The rows a token id picks -/

/-- jnp's clip of a signed word to `[0, hi]`: the larger of 0 and the word, then the smaller of that and `hi`. -/
def clipWord (hi w : BitVec 32) : BitVec 32 := IntOp.minsi hi (IntOp.maxsi 0#32 w)
/-- The vocabulary row of a token id, as a word. -/
def vocWord (w : BitVec 32) : BitVec 32 := clipWord 31999#32 w
/-- The OCR row of a token id, as a word: the id less the vocabulary size, clipped. -/
def ocrWord (w : BitVec 32) : BitVec 32 := clipWord 49#32 (IntOp.subi w 32000#32)
/-- Whether a token id names an OCR row: it is at least the vocabulary size. -/
def isOcr (w : BitVec 32) : BitVec 1 := IntOp.cmpi .sge w 32000#32

theorem maxsi_zero_toInt (w : BitVec 32) : (IntOp.maxsi 0#32 w).toInt = max 0 w.toInt := by
  unfold IntOp.maxsi
  have h0 : (0#32 : BitVec 32).toInt = 0 := by decide
  by_cases h : w.slt 0#32
  · rw [if_pos h]; simp only [BitVec.slt, h0, decide_eq_true_eq] at h; rw [h0]; omega
  · rw [if_neg h]; simp only [BitVec.slt, h0, decide_eq_true_eq] at h; omega

theorem minsi_toInt (a b : BitVec 32) : (IntOp.minsi a b).toInt = min a.toInt b.toInt := by
  unfold IntOp.minsi
  by_cases h : a.slt b
  · rw [if_pos h]; simp only [BitVec.slt, decide_eq_true_eq] at h; omega
  · rw [if_neg h]; simp only [BitVec.slt, decide_eq_true_eq] at h; omega

/-- A clipped word read signed is the word's value clipped. -/
theorem clipWord_toInt (hi w : BitVec 32) : (clipWord hi w).toInt = min hi.toInt (max 0 w.toInt) := by
  unfold clipWord; rw [minsi_toInt, maxsi_zero_toInt]

/-- A word that is not negative reads the same signed and unsigned. -/
theorem toNat_of_toInt_nonneg (x : BitVec 32) (h : 0 ≤ x.toInt) : (x.toNat : ℤ) = x.toInt := by
  have := x.isLt
  rw [BitVec.toInt_eq_toNat_cond] at h ⊢
  split_ifs at h ⊢ <;> omega

/-- A word clipped to `[0, hi]`, `hi` not negative, lies there signed, and unsigned too. -/
theorem clipWord_range (hi w : BitVec 32) (hhi : 0 ≤ hi.toInt) :
    0 ≤ (clipWord hi w).toInt ∧ (clipWord hi w).toInt ≤ hi.toInt ∧ ((clipWord hi w).toNat : ℤ) = (clipWord hi w).toInt := by
  have h := clipWord_toInt hi w
  have h0 : 0 ≤ (clipWord hi w).toInt := by rw [h]; omega
  exact ⟨h0, by rw [h]; omega, toNat_of_toInt_nonneg _ h0⟩

theorem vocWord_range (w : BitVec 32) :
    0 ≤ (vocWord w).toInt ∧ (vocWord w).toInt ≤ 31999 ∧ ((vocWord w).toNat : ℤ) = (vocWord w).toInt :=
  clipWord_range 31999#32 w (by decide)
theorem ocrWord_range (w : BitVec 32) :
    0 ≤ (ocrWord w).toInt ∧ (ocrWord w).toInt ≤ 49 ∧ ((ocrWord w).toNat : ℤ) = (ocrWord w).toInt :=
  clipWord_range 49#32 _ (by decide)

theorem vocWord_lt (w : BitVec 32) : (vocWord w).toNat < 32000 := by have := vocWord_range w; omega
theorem ocrWord_lt (w : BitVec 32) : (ocrWord w).toNat < 50 := by have := ocrWord_range w; omega

/-- The vocabulary row of a token id. -/
def vocRow (w : BitVec 32) : Fin 32000 := ⟨(vocWord w).toNat, vocWord_lt w⟩
/-- The OCR row of a token id. -/
def ocrRow (w : BitVec 32) : Fin 50 := ⟨(ocrWord w).toNat, ocrWord_lt w⟩

/-! ## The result -/

/-- Entry (b, t, h) of the result: the layer-normalised row token (b, t) picks — an OCR row of batch `b` with the
    OCR scale and shift when its id is at least the vocabulary size, else a vocabulary row with the vocabulary
    scale and shift — plus entry (t, h) of the position table. -/
def embed (voc : (⟨2, ![32000, 768]⟩ : Shape).Idx → EReal) (ocr : (⟨3, ![16, 50, 768]⟩ : Shape).Idx → EReal)
    (ids : (⟨2, ![16, 128]⟩ : Shape).Idx → BitVec 32)
    (vg vb og ob : (⟨1, ![768]⟩ : Shape).Idx → EReal) (pos : (⟨2, ![128, 768]⟩ : Shape).Idx → EReal) :
    (⟨3, ![16, 128, 768]⟩ : Shape).Idx → EReal := fun j =>
  Scalar.select (isOcr (ids (ix2 (j 0) (j 1))))
      (lnRow (fun k => ocr (ix3 (j 0) (ocrRow (ids (ix2 (j 0) (j 1)))) k)) (fun k => og (ix1 k)) (fun k => ob (ix1 k)) (j 2))
      (lnRow (fun k => voc (ix2 (vocRow (ids (ix2 (j 0) (j 1)))) k)) (fun k => vg (ix1 k)) (fun k => vb (ix1 k)) (j 2))
    + pos (ix2 (j 1) (j 2))

end Cert.Embed

end
-- ==== Proof.TablesBits.lean ====
/-
  The three prefetched tables of the embedding kernel, as functions of the ids array.

  Before the call, the program computes three [16 x 128] tables of 32-bit words from the ids: the id clipped to
  [0, 31999] (the vocabulary row), the id less 32000 clipped to [0, 49] (the OCR row), and the bit "the id is at least
  32000" widened to a word. Each is an entry-by-entry function of the ids, so each table's entry at an index is that
  function of the id at the same index: the three words of the specification.

  Windows 0 and 1 take their block index on the leading axis from tables 0 and 1 at the grid point. A clipped word lies
  in its range whatever the id was, so every such block lies inside its array and no precondition on the ids is needed.
  Everything here is stated for any float values: no float is touched.
-/
import proofs.«416861_j10866267259469_3_alg».proof.Proof.Patched.Kernel.Frame.Runs
import proofs.«416861_j10866267259469_3_alg».proof.Proof.Spec
import Idealize.ShloMosaic.Lib.StableHlo.Run
import Idealize.ShloMosaic.Lib.ValueIdx

noncomputable section

set_option maxRecDepth 16384

namespace Cert.Kernel.Tables

open Cert.Kernel Cert.Kernel.Gen Cert.Kernel.GenP Idealize.ShloMosaic Idealize.ShloMosaic.TcCoe Idealize.SL.Sem Idealize.ShloMosaic.ValueIdx

variable {F : FTy → Type} [FloatOps F] (m : (ℓ : Loc nD τ sig) → Buf (Elt F) ℓ)

/-- The ids array as the launch gives it to device 0. -/
abbrev ids : S16x128.Idx → BitVec 32 := m (((0 : Dev nD) : Thread nD τ).loc main_arg2)

/-! ## The three tables as whole arrays -/

/-- Table 0 is the ids clipped to the vocabulary: the larger of 0 and the id, then the smaller of 31999 and that,
    entry by entry (the two constants broadcast over the [16 x 128] shape). -/
theorem V_v0 : (V m 0 main_v0 : S16x128.Idx → BitVec 32) = fun i => Cert.Embed.vocWord (ids m i) := by
  dsimp only [V, V0]
  simp only [hostOps0, hostOps0_1, hostOps0_2, hostOps0_3, hostOps0_4, List.flatten_cons, List.flatten_nil, List.append_nil,
    List.cons_append, List.nil_append]
  after_results
  rfl

/-- Table 1 is the ids less 32000, clipped to [0, 49], entry by entry. -/
theorem V_v3 : (V m 0 main_v3 : S16x128.Idx → BitVec 32) = fun i => Cert.Embed.ocrWord (ids m i) := by
  dsimp only [V, V0]
  simp only [hostOps0, hostOps0_1, hostOps0_2, hostOps0_3, hostOps0_4, List.flatten_cons, List.flatten_nil, List.append_nil,
    List.cons_append, List.nil_append]
  after_results
  rfl

/-- Table 2 is the bit "the id is at least 32000", widened to a word, entry by entry. -/
theorem V_v6 : (V m 0 main_v6 : S16x128.Idx → BitVec 32) = fun i => (Cert.Embed.isOcr (ids m i)).setWidth 32 := by
  dsimp only [V, V0]
  simp only [hostOps0, hostOps0_1, hostOps0_2, hostOps0_3, hostOps0_4, List.flatten_cons, List.flatten_nil, List.append_nil,
    List.cons_append, List.nil_append]
  after_results
  rfl

/-! ## The tables read at an index -/

theorem tbl0_eq (i : S16x128.Idx) : tbl m 0 i = Cert.Embed.vocWord (m (((0 : Dev nD) : Thread nD τ).loc main_arg2) i) :=
  congrFun (V_v0 m) i
theorem tbl1_eq (i : S16x128.Idx) : tbl m 1 i = Cert.Embed.ocrWord (m (((0 : Dev nD) : Thread nD τ).loc main_arg2) i) :=
  congrFun (V_v3 m) i
theorem tbl2_eq (i : S16x128.Idx) : tbl m 2 i = (Cert.Embed.isOcr (m (((0 : Dev nD) : Thread nD τ).loc main_arg2) i)).setWidth 32 :=
  congrFun (V_v6 m) i

/-! ## Every table-indexed block lies inside its array -/

/-- Window 0's block index on the leading axis is a vocabulary word, below 32000; window 1's is the batch coordinate,
    below 16, then an OCR word, below 50. The other axes' block indices are 0 and the blocks span those axes. -/
theorem ok : Ok m := by
  have h0 : ∀ x : S16x128.Idx, (tbl m 0 x).toNat < 32000 := fun x => by rw [tbl0_eq]; exact Cert.Embed.vocWord_lt _
  have h1 : ∀ x : S16x128.Idx, (tbl m 1 x).toNat < 50 := fun x => by rw [tbl1_eq]; exact Cert.Embed.ocrWord_lt _
  refine ⟨fun i => ?_, fun i => ?_⟩
  · obtain ⟨w, hw, e⟩ : ∃ w : BitVec 32, w.toNat < 32000 ∧
        cc0_transform_0 k0_off1_inb numel1_S1x1 (tbl m) i = ![w.toNat, 0, 0] := ⟨_, h0 _, rfl⟩
    refine ⟨fun a => ?_, Or.inl rfl⟩
    rw [e]
    fin_cases a <;> simp [S1x6x128, S32000x6x128] <;> omega
  · have hi : (i 0).val < 16 := (i 0).isLt
    obtain ⟨w, hw, e⟩ : ∃ w : BitVec 32, w.toNat < 50 ∧
        cc0_transform_1 k0_off1_inb numel1_S1x1 (tbl m) i = ![(BitVec.ofNat 32 (i 0).val).toNat, w.toNat, 0, 0] := ⟨_, h1 _, rfl⟩
    refine ⟨fun a => ?_, Or.inl rfl⟩
    rw [e]
    fin_cases a <;> simp [S1x1x6x128, S16x50x6x128, BitVec.toNat_ofNat] <;> omega

/-! ## The block indices as functions of the ids -/

/-- The [16 x 128] index a grid point names: its two coordinates. -/
abbrev pt (i : grid0.Coords) : S16x128.Idx := ix2 (n0 := 16) (n1 := 128) (i 0) (i 1)

/-- The one index of the unit rectangle at offsets `off` of the [16 x 128] shape is the index whose coordinates the
    offsets are. -/
theorem unit_idx (i : grid0.Coords) (off : Fin 2 → Nat) (e0 : off 0 = (i 0).val) (e1 : off 1 = (i 1).val)
    (inb : ∀ a, off a + S1x1.size a ≤ S16x128.size a) (hn : 0 < S1x1.numel) :
    (Rect.unit (s := S16x128) off S1x1.size inb).emb (Shape.Idx.first hn) = pt i := by
  funext a
  apply Fin.ext
  fin_cases a
  · show off 0 + 1 * 0 = (i 0).val
    omega
  · show off 1 + 1 * 0 = (i 1).val
    omega

/-- The word an index map reads from a table at grid point `i` is the table's entry at that point. -/
theorem at0_eq (i : grid0.Coords) :
    (tbl m).at 0 (Rect.unit (s := S16x128) (k0_off1 i) S1x1.size (k0_off1_inb i)) numel1_S1x1 = tbl m 0 (pt i) :=
  congrArg (tbl m 0) (unit_idx i (k0_off1 i) (congrFun (k0_off1_eq i) 0) (congrFun (k0_off1_eq i) 1) (k0_off1_inb i) _)
theorem at1_eq (i : grid0.Coords) :
    (tbl m).at 1 (Rect.unit (s := S16x128) (k0_off1 i) S1x1.size (k0_off1_inb i)) numel1_S1x1 = tbl m 1 (pt i) :=
  congrArg (tbl m 1) (unit_idx i (k0_off1 i) (congrFun (k0_off1_eq i) 0) (congrFun (k0_off1_eq i) 1) (k0_off1_inb i) _)
theorem at2_eq (i : grid0.Coords) :
    (tbl m).at 2 (Rect.unit (s := S16x128) (k0_off1 i) S1x1.size (k0_off1_inb i)) numel1_S1x1 = tbl m 2 (pt i) :=
  congrArg (tbl m 2) (unit_idx i (k0_off1 i) (congrFun (k0_off1_eq i) 0) (congrFun (k0_off1_eq i) 1) (k0_off1_inb i) _)

/-- Window 0's block index: the vocabulary word of the point's id on the leading axis, 0 on the others. -/
theorem blockIdx0 (i : grid0.Coords) :
    cc0_transform_0 k0_off1_inb numel1_S1x1 (tbl m) i
      = ![(Cert.Embed.vocWord (m (((0 : Dev nD) : Thread nD τ).loc main_arg2) (pt i))).toNat, 0, 0] := by
  have e : cc0_transform_0 k0_off1_inb numel1_S1x1 (tbl m) i
      = ![((tbl m).at 0 (Rect.unit (s := S16x128) (k0_off1 i) S1x1.size (k0_off1_inb i)) numel1_S1x1).toNat, 0, 0] := rfl
  rw [e, at0_eq, tbl0_eq]

/-- Window 1's block index: the batch coordinate, then the OCR word of the point's id, then 0 on the others. -/
theorem blockIdx1 (i : grid0.Coords) :
    cc0_transform_1 k0_off1_inb numel1_S1x1 (tbl m) i
      = ![(i 0).val, (Cert.Embed.ocrWord (m (((0 : Dev nD) : Thread nD τ).loc main_arg2) (pt i))).toNat, 0, 0] := by
  have e : cc0_transform_1 k0_off1_inb numel1_S1x1 (tbl m) i
      = ![(BitVec.ofNat 32 (i 0).val).toNat,
          ((tbl m).at 1 (Rect.unit (s := S16x128) (k0_off1 i) S1x1.size (k0_off1_inb i)) numel1_S1x1).toNat, 0, 0] := rfl
  have hi : (i 0).val < 16 := (i 0).isLt
  have h32 : (BitVec.ofNat 32 (i 0).val).toNat = (i 0).val := by
    rw [BitVec.toNat_ofNat]; exact Nat.mod_eq_of_lt (by omega)
  rw [e, at1_eq, tbl1_eq, h32]

end Cert.Kernel.Tables

end
-- ==== Proof.TablesIdeal.lean ====
/-
  The three prefetched tables of the embedding kernel, as functions of the ids array.

  Before the call, the program computes three [16 x 128] tables of 32-bit words from the ids: the id clipped to
  [0, 31999] (the vocabulary row), the id less 32000 clipped to [0, 49] (the OCR row), and the bit "the id is at least
  32000" widened to a word. Each is an entry-by-entry function of the ids, so each table's entry at an index is that
  function of the id at the same index: the three words of the specification.

  Windows 0 and 1 take their block index on the leading axis from tables 0 and 1 at the grid point. A clipped word lies
  in its range whatever the id was, so every such block lies inside its array and no precondition on the ids is needed.
  Everything here is stated for any float values: no float is touched.
-/
import proofs.«416861_j10866267259469_3_alg».proof.Proof.Patched.KernelIdeal.Frame.Runs
import proofs.«416861_j10866267259469_3_alg».proof.Proof.Spec
import Idealize.ShloMosaic.Lib.StableHlo.Run
import Idealize.ShloMosaic.Lib.ValueIdx

noncomputable section

set_option maxRecDepth 16384

namespace Cert.KernelIdeal.Tables

open Cert.KernelIdeal Cert.KernelIdeal.Gen Cert.KernelIdeal.GenP Idealize.ShloMosaic Idealize.ShloMosaic.TcCoe Idealize.SL.Sem Idealize.ShloMosaic.ValueIdx

variable {F : FTy → Type} [FloatOps F] (m : (ℓ : Loc nD τ sig) → Buf (Elt F) ℓ)

/-- The ids array as the launch gives it to device 0. -/
abbrev ids : S16x128.Idx → BitVec 32 := m (((0 : Dev nD) : Thread nD τ).loc main_arg2)

/-! ## The three tables as whole arrays -/

/-- Table 0 is the ids clipped to the vocabulary: the larger of 0 and the id, then the smaller of 31999 and that,
    entry by entry (the two constants broadcast over the [16 x 128] shape). -/
theorem V_v0 : (V m 0 main_v0 : S16x128.Idx → BitVec 32) = fun i => Cert.Embed.vocWord (ids m i) := by
  dsimp only [V, V0]
  simp only [hostOps0, hostOps0_1, hostOps0_2, hostOps0_3, hostOps0_4, List.flatten_cons, List.flatten_nil, List.append_nil,
    List.cons_append, List.nil_append]
  after_results
  rfl

/-- Table 1 is the ids less 32000, clipped to [0, 49], entry by entry. -/
theorem V_v3 : (V m 0 main_v3 : S16x128.Idx → BitVec 32) = fun i => Cert.Embed.ocrWord (ids m i) := by
  dsimp only [V, V0]
  simp only [hostOps0, hostOps0_1, hostOps0_2, hostOps0_3, hostOps0_4, List.flatten_cons, List.flatten_nil, List.append_nil,
    List.cons_append, List.nil_append]
  after_results
  rfl

/-- Table 2 is the bit "the id is at least 32000", widened to a word, entry by entry. -/
theorem V_v6 : (V m 0 main_v6 : S16x128.Idx → BitVec 32) = fun i => (Cert.Embed.isOcr (ids m i)).setWidth 32 := by
  dsimp only [V, V0]
  simp only [hostOps0, hostOps0_1, hostOps0_2, hostOps0_3, hostOps0_4, List.flatten_cons, List.flatten_nil, List.append_nil,
    List.cons_append, List.nil_append]
  after_results
  rfl

/-! ## The tables read at an index -/

theorem tbl0_eq (i : S16x128.Idx) : tbl m 0 i = Cert.Embed.vocWord (m (((0 : Dev nD) : Thread nD τ).loc main_arg2) i) :=
  congrFun (V_v0 m) i
theorem tbl1_eq (i : S16x128.Idx) : tbl m 1 i = Cert.Embed.ocrWord (m (((0 : Dev nD) : Thread nD τ).loc main_arg2) i) :=
  congrFun (V_v3 m) i
theorem tbl2_eq (i : S16x128.Idx) : tbl m 2 i = (Cert.Embed.isOcr (m (((0 : Dev nD) : Thread nD τ).loc main_arg2) i)).setWidth 32 :=
  congrFun (V_v6 m) i

/-! ## Every table-indexed block lies inside its array -/

/-- Window 0's block index on the leading axis is a vocabulary word, below 32000; window 1's is the batch coordinate,
    below 16, then an OCR word, below 50. The other axes' block indices are 0 and the blocks span those axes. -/
theorem ok : Ok m := by
  have h0 : ∀ x : S16x128.Idx, (tbl m 0 x).toNat < 32000 := fun x => by rw [tbl0_eq]; exact Cert.Embed.vocWord_lt _
  have h1 : ∀ x : S16x128.Idx, (tbl m 1 x).toNat < 50 := fun x => by rw [tbl1_eq]; exact Cert.Embed.ocrWord_lt _
  refine ⟨fun i => ?_, fun i => ?_⟩
  · obtain ⟨w, hw, e⟩ : ∃ w : BitVec 32, w.toNat < 32000 ∧
        cc0_transform_0 k0_off1_inb numel1_S1x1 (tbl m) i = ![w.toNat, 0, 0] := ⟨_, h0 _, rfl⟩
    refine ⟨fun a => ?_, Or.inl rfl⟩
    rw [e]
    fin_cases a <;> simp [S1x6x128, S32000x6x128] <;> omega
  · have hi : (i 0).val < 16 := (i 0).isLt
    obtain ⟨w, hw, e⟩ : ∃ w : BitVec 32, w.toNat < 50 ∧
        cc0_transform_1 k0_off1_inb numel1_S1x1 (tbl m) i = ![(BitVec.ofNat 32 (i 0).val).toNat, w.toNat, 0, 0] := ⟨_, h1 _, rfl⟩
    refine ⟨fun a => ?_, Or.inl rfl⟩
    rw [e]
    fin_cases a <;> simp [S1x1x6x128, S16x50x6x128, BitVec.toNat_ofNat] <;> omega

/-! ## The block indices as functions of the ids -/

/-- The [16 x 128] index a grid point names: its two coordinates. -/
abbrev pt (i : grid0.Coords) : S16x128.Idx := ix2 (n0 := 16) (n1 := 128) (i 0) (i 1)

/-- The one index of the unit rectangle at offsets `off` of the [16 x 128] shape is the index whose coordinates the
    offsets are. -/
theorem unit_idx (i : grid0.Coords) (off : Fin 2 → Nat) (e0 : off 0 = (i 0).val) (e1 : off 1 = (i 1).val)
    (inb : ∀ a, off a + S1x1.size a ≤ S16x128.size a) (hn : 0 < S1x1.numel) :
    (Rect.unit (s := S16x128) off S1x1.size inb).emb (Shape.Idx.first hn) = pt i := by
  funext a
  apply Fin.ext
  fin_cases a
  · show off 0 + 1 * 0 = (i 0).val
    omega
  · show off 1 + 1 * 0 = (i 1).val
    omega

/-- The word an index map reads from a table at grid point `i` is the table's entry at that point. -/
theorem at0_eq (i : grid0.Coords) :
    (tbl m).at 0 (Rect.unit (s := S16x128) (k0_off1 i) S1x1.size (k0_off1_inb i)) numel1_S1x1 = tbl m 0 (pt i) :=
  congrArg (tbl m 0) (unit_idx i (k0_off1 i) (congrFun (k0_off1_eq i) 0) (congrFun (k0_off1_eq i) 1) (k0_off1_inb i) _)
theorem at1_eq (i : grid0.Coords) :
    (tbl m).at 1 (Rect.unit (s := S16x128) (k0_off1 i) S1x1.size (k0_off1_inb i)) numel1_S1x1 = tbl m 1 (pt i) :=
  congrArg (tbl m 1) (unit_idx i (k0_off1 i) (congrFun (k0_off1_eq i) 0) (congrFun (k0_off1_eq i) 1) (k0_off1_inb i) _)
theorem at2_eq (i : grid0.Coords) :
    (tbl m).at 2 (Rect.unit (s := S16x128) (k0_off1 i) S1x1.size (k0_off1_inb i)) numel1_S1x1 = tbl m 2 (pt i) :=
  congrArg (tbl m 2) (unit_idx i (k0_off1 i) (congrFun (k0_off1_eq i) 0) (congrFun (k0_off1_eq i) 1) (k0_off1_inb i) _)

/-- Window 0's block index: the vocabulary word of the point's id on the leading axis, 0 on the others. -/
theorem blockIdx0 (i : grid0.Coords) :
    cc0_transform_0 k0_off1_inb numel1_S1x1 (tbl m) i
      = ![(Cert.Embed.vocWord (m (((0 : Dev nD) : Thread nD τ).loc main_arg2) (pt i))).toNat, 0, 0] := by
  have e : cc0_transform_0 k0_off1_inb numel1_S1x1 (tbl m) i
      = ![((tbl m).at 0 (Rect.unit (s := S16x128) (k0_off1 i) S1x1.size (k0_off1_inb i)) numel1_S1x1).toNat, 0, 0] := rfl
  rw [e, at0_eq, tbl0_eq]

/-- Window 1's block index: the batch coordinate, then the OCR word of the point's id, then 0 on the others. -/
theorem blockIdx1 (i : grid0.Coords) :
    cc0_transform_1 k0_off1_inb numel1_S1x1 (tbl m) i
      = ![(i 0).val, (Cert.Embed.ocrWord (m (((0 : Dev nD) : Thread nD τ).loc main_arg2) (pt i))).toNat, 0, 0] := by
  have e : cc0_transform_1 k0_off1_inb numel1_S1x1 (tbl m) i
      = ![(BitVec.ofNat 32 (i 0).val).toNat,
          ((tbl m).at 1 (Rect.unit (s := S16x128) (k0_off1 i) S1x1.size (k0_off1_inb i)) numel1_S1x1).toNat, 0, 0] := rfl
  have hi : (i 0).val < 16 := (i 0).isLt
  have h32 : (BitVec.ofNat 32 (i 0).val).toNat = (i 0).val := by
    rw [BitVec.toNat_ofNat]; exact Nat.mod_eq_of_lt (by omega)
  rw [e, at1_eq, tbl1_eq, h32]

end Cert.KernelIdeal.Tables

end
-- ==== Proof.KPayload.lean ====
/-
  What the kernel's body computes at one grid point, as a function of the blocks it loads.

  The body loads three rows laid out [6 × 128] — a vocabulary row, an OCR row, a position row —, four rows of 768
  (the two tables' scales and shifts) and one flag word; it flattens each [6 × 128] row to its 768 entries
  (entry p·128 + q from position (p, q)), layer-normalises the vocabulary row and the OCR row, keeps the OCR one
  when the flag word is not zero, adds the position row and lays the result out [6 × 128] again. Read at position
  (p, q) that is the specification's `lnRow` of the chosen row at entry p·128 + q, plus the position row there.
-/
import proofs.«416861_j10866267259469_3_alg».proof.Proof.Gen.KernelIdeal.Skeleton
import proofs.«416861_j10866267259469_3_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.KValue

open Cert.KernelIdeal Cert.KernelIdeal.Gen Cert.Embed Idealize.ShloMosaic Idealize.ShloMosaic.ValueIdx

/-! ## Entry numbers and positions of a row laid out [6 × 128] -/

/-- Position (p, q) of the [6 × 128] layout is entry p·128 + q of the row. -/
def flat (p : Fin 6) (q : Fin 128) : Fin 768 := ⟨p.val * 128 + q.val, by omega⟩
/-- Entry k of the row sits in line k / 128 -/
def line (k : Fin 768) : Fin 6 := ⟨k.val / 128, by omega⟩
/-- at lane k mod 128. -/
def lane (k : Fin 768) : Fin 128 := ⟨k.val % 128, Nat.mod_lt _ (by decide)⟩

theorem line_flat (p : Fin 6) (q : Fin 128) : line (flat p q) = p := Fin.ext (by simp only [line, flat]; omega)
theorem lane_flat (p : Fin 6) (q : Fin 128) : lane (flat p q) = q := Fin.ext (by simp only [lane, flat]; omega)
theorem flat_line_lane (k : Fin 768) : flat (line k) (lane k) = k := Fin.ext (by simp only [line, lane, flat]; omega)

/-! ## One row of 768, as the body normalises it -/

/-- f32 is a format sums are taken in, -/
theorem fmt32 : FKind.Formats .f32 := .inl rfl
/-- and the zero word is the sum's neutral element there. -/
theorem zero32 : (0x00000000#32 : BitVec 32) = FKind.add.neutral .f32 fmt32 := rfl

/-- The sum of a [1 × 768] row over its lanes is the sum of its 768 entries. -/
theorem rowSum (v : FVec Ideal S1x768 .f32) :
    multiReduction (F := Ideal) .add [1] S1 v 0x00000000#32 reduces_S1x768_S1 fmt32 zero32 (ix1 (0 : Fin 1))
      = ∑ k : Fin 768, v (ix2 (0 : Fin 1) k) := by
  refine (Ideal.multiReduction_add_single v 0x00000000#32 reduces_S1x768_S1 fmt32 zero32 (ix1 (0 : Fin 1))).trans ?_
  refine Finset.sum_congr rfl fun k _ => congrArg v ?_
  exact funext fun a => Fin.ext (by match a with | ⟨0, _⟩ => rfl | ⟨1, _⟩ => rfl)

/-- A [1 × 1] value spread along a row reads, at every entry, as that value. -/
theorem spread (u : FVec Ideal S1x1 .f32) (k : Fin 768) :
    broadcastTo S1x768 u broadcasts_S1x1_S1x768 (ix2 (0 : Fin 1) k) = u (ix2 (0 : Fin 1) (0 : Fin 1)) :=
  broadcastTo_apply u broadcasts_S1x1_S1x768 _ _ (fun a => by
    match a with
    | ⟨0, _⟩ => show (0 : Nat) = if (1 : Nat) = 1 then 0 else _; rw [if_pos rfl]
    | ⟨1, _⟩ => show (0 : Nat) = if (1 : Nat) = 1 then 0 else _; rw [if_pos rfl])

/-- A one-entry vector as a [1 × 1] value. -/
theorem keep (u : FVec Ideal S1 .f32) : shapeCast S1x1 u shapeCasts_S1_S1x1 (ix2 (0 : Fin 1) (0 : Fin 1)) = u (ix1 (0 : Fin 1)) :=
  shapeCast_a_1a_apply u shapeCasts_S1_S1x1 (0 : Fin 1) (0 : Fin 1)

/-- The body's LayerNorm of a [1 × 768] row `v` with scale `g` and shift `b`, operation by operation. -/
def lnVec (v g b : FVec Ideal S1x768 .f32) : FVec Ideal S1x768 .f32 :=
  have v13 : FVec Ideal S1 .f32 := multiReduction .add [1] S1 v 0x00000000#32 reduces_S1x768_S1 fmt32 zero32
  have v14 : FVec Ideal S1x1 .f32 := shapeCast S1x1 v13 shapeCasts_S1_S1x1
  have cst_13 : Ideal .f32 := Scalar.ofBits .f32 0x44400000#32
  have v15 : FVec Ideal S1x1 .f32 := broadcast S1x1 cst_13
  have v16 : FVec Ideal S1x1 .f32 := divf v14 v15
  have v17 : FVec Ideal S1x768 .f32 := broadcastTo S1x768 v16 broadcasts_S1x1_S1x768
  have v18 : FVec Ideal S1x768 .f32 := subf v v17
  have v19 : FVec Ideal S1x768 .f32 := mulf v18 v18
  have v20 : FVec Ideal S1 .f32 := multiReduction .add [1] S1 v19 0x00000000#32 reduces_S1x768_S1 fmt32 zero32
  have v21 : FVec Ideal S1x1 .f32 := shapeCast S1x1 v20 shapeCasts_S1_S1x1
  have cst_15 : Ideal .f32 := Scalar.ofBits .f32 0x44400000#32
  have v22 : FVec Ideal S1x1 .f32 := broadcast S1x1 cst_15
  have v23 : FVec Ideal S1x1 .f32 := divf v21 v22
  have v24 : FVec Ideal S1x768 .f32 := broadcastTo S1x768 v16 broadcasts_S1x1_S1x768
  have v25 : FVec Ideal S1x768 .f32 := subf v v24
  have cst_16 : Ideal .f32 := Scalar.ofBits .f32 0x3727C5AC#32
  have v26 : FVec Ideal S1x1 .f32 := broadcast S1x1 cst_16
  have v27 : FVec Ideal S1x1 .f32 := addf v23 v26
  have v28 : FVec Ideal S1x1 .f32 := rsqrt v27
  have v29 : FVec Ideal S1x768 .f32 := broadcastTo S1x768 v28 broadcasts_S1x1_S1x768
  have v30 : FVec Ideal S1x768 .f32 := mulf v25 v29
  have v31 : FVec Ideal S1x768 .f32 := mulf v30 g
  have v32 : FVec Ideal S1x768 .f32 := addf v31 b
  v32

/-- Entry k of the body's LayerNorm is the specification's. -/
theorem lnVec_apply (v g b : FVec Ideal S1x768 .f32) (k : Fin 768) :
    lnVec v g b (ix2 (0 : Fin 1) k)
      = lnRow (fun k => v (ix2 (0 : Fin 1) k)) (fun k => g (ix2 (0 : Fin 1) k)) (fun k => b (ix2 (0 : Fin 1) k)) k := by
  unfold lnVec lnRow rowVar rowMean width eps
  simp only [addf_apply, mulf_apply, subf_apply, divf_apply, spread, keep, broadcast_apply, rsqrt, Scalar.ofBits,
    Ideal.rsqrt_def, Ideal.ofBits_def]
  rw [rowSum v, rowSum]
  simp only [mulf_apply, subf_apply, divf_apply, spread, keep, broadcast_apply, Scalar.ofBits, Ideal.ofBits_def]
  rw [rowSum v]

/-! ## The body's value at a position of its output block -/

/-- A [6 × 128] row flattened, at entry k: its position (k / 128, k mod 128). -/
theorem k0_pay3_apply (x : Vec Ideal S1x6x128 .f32) (k : Fin 768) :
    k0_pay3 (F := Ideal) x (ix2 (0 : Fin 1) k) = x (ix3 (0 : Fin 1) (line k) (lane k)) := by
  unfold k0_pay3
  rw [shapeCast_self]
  exact shapeCast_apply x shapeCasts_S1x6x128_S1x768 _ _ (by
    rw [Shape.rowMajor_val_three, Shape.rowMajor_val_two]
    show (0 * 6 + k.val / 128) * 128 + k.val % 128 = 0 * 768 + k.val
    omega)

/-- The same with one more leading unit axis. -/
theorem k0_pay2_apply (x : Vec Ideal S1x1x6x128 .f32) (k : Fin 768) :
    k0_pay2 (F := Ideal) x (ix2 (0 : Fin 1) k) = x (ix4 (0 : Fin 1) (0 : Fin 1) (line k) (lane k)) := by
  unfold k0_pay2
  rw [shapeCast_self]
  exact shapeCast_apply x shapeCasts_S1x1x6x128_S1x768 _ _ (by
    rw [Shape.rowMajor_val_four, Shape.rowMajor_val_two]
    show ((0 * 1 + 0) * 6 + k.val / 128) * 128 + k.val % 128 = 0 * 768 + k.val
    omega)

/-- A row of 768 laid out [6 × 128] again, at position (p, q): its entry p·128 + q. -/
theorem relay_apply (v : FVec Ideal S1x768 .f32) (p : Fin 6) (q : Fin 128) :
    shapeCast S1x1x6x128 v shapeCasts_S1x768_S1x1x6x128 (ix4 (0 : Fin 1) (0 : Fin 1) p q) = v (ix2 (0 : Fin 1) (flat p q)) :=
  shapeCast_apply v shapeCasts_S1x768_S1x1x6x128 _ _ (by
    rw [Shape.rowMajor_val_four, Shape.rowMajor_val_two]
    show 0 * 768 + (p.val * 128 + q.val) = ((0 * 1 + 0) * 6 + p.val) * 128 + q.val
    omega)

/-- The vocabulary row's LayerNorm in the body is `lnVec` of the flattened row. -/
theorem k0_pay4_eq (x0 : Vec Ideal S1x6x128 .f32) (x3 x4 : Vec Ideal S1x768 .f32) :
    k0_pay4 (F := Ideal) x0 x3 x4
      = lnVec (k0_pay3 x0) (shapeCast S1x768 x3 shapeCasts_S1x768_S1x768) (shapeCast S1x768 x4 shapeCasts_S1x768_S1x768) := rfl

/-- The stored value: the OCR row's `lnVec` or the vocabulary row's by the flag word, plus the position row, laid out
    [6 × 128]. -/
theorem k0_pay1_eq (v5 v8 v32 v34 : FVec Ideal S1x768 .f32) (v35 : Vec Ideal S1x768 .f32) (w : BitVec 32) :
    k0_pay1 (F := Ideal) v5 v8 v32 v34 v35 w
      = shapeCast S1x1x6x128 (addf (Scalar.select (Scalar.cmpi .ne w 0#32)
          (lnVec v5 v34 (shapeCast S1x768 v35 shapeCasts_S1x768_S1x768)) v32) v8) shapeCasts_S1x768_S1x1x6x128 := rfl

/-- A choice between two rows by one bit, read at an entry. -/
theorem select_row (c : BitVec 1) (a b : FVec Ideal S1x768 .f32) (i : S1x768.Idx) :
    (Scalar.select c a b : FVec Ideal S1x768 .f32) i = Scalar.select c (a i) (b i) := by
  unfold Scalar.select; split <;> rfl

/-- THE BODY AT A POSITION: what it stores at (p, q) of its output block, from the blocks it loaded and the flag
    word `w`. -/
theorem body_apply (x0 : Vec Ideal S1x6x128 .f32) (x1 : Vec Ideal S1x1x6x128 .f32) (x2 : Vec Ideal S1x6x128 .f32)
    (x3 x4 x5 x6 : Vec Ideal S1x768 .f32) (w : BitVec 32) (p : Fin 6) (q : Fin 128) :
    k0_pay1 (F := Ideal) (k0_pay2 x1) (k0_pay3 x2) (k0_pay4 x0 x3 x4) (k0_pay5 x5) x6 w (ix4 (0 : Fin 1) (0 : Fin 1) p q)
      = Scalar.select (Scalar.cmpi .ne w 0#32)
          (lnRow (fun k => x1 (ix4 (0 : Fin 1) (0 : Fin 1) (line k) (lane k))) (fun k => x5 (ix2 (0 : Fin 1) k))
            (fun k => x6 (ix2 (0 : Fin 1) k)) (flat p q))
          (lnRow (fun k => x0 (ix3 (0 : Fin 1) (line k) (lane k))) (fun k => x3 (ix2 (0 : Fin 1) k))
            (fun k => x4 (ix2 (0 : Fin 1) k)) (flat p q))
        + x2 (ix3 (0 : Fin 1) p q) := by
  rw [k0_pay1_eq, k0_pay4_eq, relay_apply, addf_apply, select_row, lnVec_apply, lnVec_apply, k0_pay3_apply,
    line_flat, lane_flat]
  unfold k0_pay5
  simp only [shapeCast_self, k0_pay2_apply, k0_pay3_apply]

end Cert.KernelIdeal.KValue

end
-- ==== Proof.KFrame.lean ====
/-
  What one grid point leaves in the output's staging buffer, and where its input blocks come from.

  At a grid point (b, t) the body's one store covers the whole [1 × 1 × 6 × 128] output block, so the block ends
  holding the stored value: the body's function (KPayload) of the seven blocks staged for the point and of the
  flag table's word at (b, t).
-/
import proofs.«416861_j10866267259469_3_alg».proof.Proof.Patched.KernelIdeal.Frame
import proofs.«416861_j10866267259469_3_alg».proof.Proof.KPayload
import Idealize.ShloMosaic.Lib.Pipeline.Value
import Idealize.ShloMosaic.Lib.Tactic

noncomputable section

namespace Cert.KernelIdeal.KValue

open Cert.KernelIdeal Cert.KernelIdeal.Gen Cert.KernelIdeal.GenP Cert.Embed
open Idealize.ShloMosaic Idealize.ShloMosaic.TcCoe Idealize.SL.Sem Idealize.ShloMosaic.ValueIdx
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The flag table's word the body reads at grid point `i`: its entry at the point's two coordinates. -/
abbrev flagAt (c : Dev nD) (i : grid0.Coords) (xt2 : TbBuf0 (F := F) c tbM0_2) : Elt F .i32 :=
  View.readAt (Elt F) tbM0_2.view (Rect.unit (s := S16x128) (k0_off1 i) S1x1.size (k0_off1_inb i)).toLoadRect xt2
    (Shape.Idx.first (numel1_S1x1.symm ▸ Nat.one_pos))

/-- The output block after the body at a point: the body's stored value of the staged blocks and the flag word. -/
theorem out_eq (c : Dev nD) (i : grid0.Coords) (arg5 : Memref sig .tc .vmem S1x6x128 .f32) (harg5 : arg5.IsWhole) (arg6 : Memref sig .tc .vmem S1x1x6x128 .f32) (harg6 : arg6.IsWhole) (arg7 : Memref sig .tc .vmem S1x6x128 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S1x768 .f32) (harg10 : arg10.IsWhole) (arg11 : Memref sig .tc .vmem S1x768 .f32) (harg11 : arg11.IsWhole) (arg12 : Memref sig .tc .vmem S1x1x6x128 .f32) (harg12 : arg12.IsWhole)
    (x0 : Vec F S1x6x128 .f32) (x1 : Vec F S1x1x6x128 .f32) (x2 : Vec F S1x6x128 .f32) (x3 : Vec F S1x768 .f32) (x4 : Vec F S1x768 .f32) (x5 : Vec F S1x768 .f32) (x6 : Vec F S1x768 .f32) (xt0 : TbBuf0 (F := F) c tbM0_0) (xt1 : TbBuf0 (F := F) c tbM0_1) (xt2 : TbBuf0 (F := F) c tbM0_2) :
    out0_A_7 (F := F) c i arg5 harg5 arg6 harg6 arg7 harg7 arg8 harg8 arg9 harg9 arg10 harg10 arg11 harg11 arg12 harg12 x0 x1 x2 x3 x4 x5 x6 xt0 xt1 xt2
      = k0_pay1 (k0_pay2 x1) (k0_pay3 x2) (k0_pay4 x0 x3 x4) (k0_pay5 x5) x6 (flagAt c i xt2) := by
  unfold out0_A_7
  rw [View.read_writes_eq_canon _ _ _ (cover0_A_7 c i arg5 harg5 arg6 harg6 arg7 harg7 arg8 harg8 arg9 harg9 arg10 harg10 arg11 harg11 arg12 harg12 x0 x1 x2 x3 x4 x5 x6 xt0 xt1 xt2)]
  unfold kernelRun0_A
  dsimp only
  sl_unfold_words
  rw [View.canon_unit_zero hz4]
  simp only [View.readAt_eq_ld, harg5.read_unread, harg6.read_unread, harg7.read_unread, harg8.read_unread,
    harg9.read_unread, harg10.read_unread, harg11.read_unread, View.ld_unit_zero (S := S1x6x128) hz3,
    View.ld_unit_zero (S := S1x1x6x128) hz4, View.ld_unit_zero (S := S1x768) hz2]
  rfl

end Cert.KernelIdeal.KValue

end
-- ==== Proof.KBlocks.lean ====
/-
  What the region finds in the arrays its windows read, and each staged block read at a position.

  @main hands the call the two tables laid out with each row as [6 × 128], the position table it computed laid out
  the same way, and the four scale and shift vectors as single rows; the three index tables are the clipped ids
  and the flag. At grid point (b, t) the staged blocks are therefore: vocabulary row `vocRow id`, OCR row
  `ocrRow id` of batch b, position row t, and the four vectors — `id` the token id at (b, t) — and the flag word
  is the bit "id ≥ 32000" widened.
-/
import proofs.«416861_j10866267259469_3_alg».proof.Proof.Patched.KernelIdeal.Frame
import proofs.«416861_j10866267259469_3_alg».proof.Proof.KFrame
import proofs.«416861_j10866267259469_3_alg».proof.Proof.TablesIdeal
import Idealize.ShloMosaic.Lib.Pipeline.Value
import Idealize.ShloMosaic.Lib.StableHlo.Run
import Idealize.ShloMosaic.Lib.ValueLayout
import Idealize.ShloMosaic.Lib.Pipeline.Regions

noncomputable section

namespace Cert.KernelIdeal.KValue

open Cert.KernelIdeal Cert.KernelIdeal.Gen Cert.KernelIdeal.GenP Cert.Embed
open Idealize.ShloMosaic Idealize.ShloMosaic.TcCoe Idealize.SL.Sem Idealize.ShloMosaic.ValueIdx Idealize.ShloMosaic.StableHlo
open Idealize.ShloMosaic.Pipeline (Dat)

variable {F : FTy → Type} [FloatOps F] (m : (ℓ : Loc nD τ sig) → Buf (Elt F) ℓ)

/-! ## What the region finds in its windows' arrays -/

set_option maxHeartbeats 2000000 in
/-- The vocabulary table as the region finds it: the argument array laid out [32000 × 6 × 128]. -/
theorem V_voc (c : Dev nD) : (V m c main_v47 : S32000x6x128.Idx → Elt F .f32)
    = shapeCast S32000x6x128 (m ((c : Thread nD τ).loc main_arg0)) shapeCasts_S32000x768_S32000x6x128 := by
  dsimp only [V, V0]
  simp only [hostOps0, hostOps0_1, hostOps0_2, hostOps0_3, hostOps0_4, List.flatten_cons, List.flatten_nil, List.append_nil,
    List.cons_append, List.nil_append]
  after_results_simp
  rfl

set_option maxHeartbeats 2000000 in
/-- The OCR table as the region finds it: the argument array laid out [16 × 50 × 6 × 128]. -/
theorem V_ocr (c : Dev nD) : (V m c main_v48 : S16x50x6x128.Idx → Elt F .f32)
    = shapeCast S16x50x6x128 (m ((c : Thread nD τ).loc main_arg1)) shapeCasts_S16x50x768_S16x50x6x128 := by
  dsimp only [V, V0]
  simp only [hostOps0, hostOps0_1, hostOps0_2, hostOps0_3, hostOps0_4, List.flatten_cons, List.flatten_nil, List.append_nil,
    List.cons_append, List.nil_append]
  after_results_simp
  rfl

set_option maxHeartbeats 2000000 in
/-- The position table as the region finds it: the table @main computed before the call, laid out [128 × 6 × 128]. -/
theorem V_pos (c : Dev nD) : (V m c main_v49 : S128x6x128.Idx → Elt F .f32)
    = shapeCast S128x6x128 (V m c main_v42 : S128x768.Idx → Elt F .f32) shapeCasts_S128x768_S128x6x128 := by
  dsimp only [V, V0]
  simp only [hostOps0, hostOps0_1, hostOps0_2, hostOps0_3, hostOps0_4, List.flatten_cons, List.flatten_nil, List.append_nil,
    List.cons_append, List.nil_append]
  after_results_simp
  rfl

set_option maxHeartbeats 2000000 in
/-- The vocabulary scale as the region finds it: the argument as one row. -/
theorem V_vg (c : Dev nD) : (V m c main_v43 : S1x768.Idx → Elt F .f32)
    = shapeCast S1x768 (m ((c : Thread nD τ).loc main_arg3)) shapeCasts_S768_S1x768 := by
  dsimp only [V, V0]
  simp only [hostOps0, hostOps0_1, hostOps0_2, hostOps0_3, hostOps0_4, List.flatten_cons, List.flatten_nil, List.append_nil,
    List.cons_append, List.nil_append]
  after_results_simp
  rfl

set_option maxHeartbeats 2000000 in
/-- The vocabulary shift. -/
theorem V_vb (c : Dev nD) : (V m c main_v44 : S1x768.Idx → Elt F .f32)
    = shapeCast S1x768 (m ((c : Thread nD τ).loc main_arg4)) shapeCasts_S768_S1x768 := by
  dsimp only [V, V0]
  simp only [hostOps0, hostOps0_1, hostOps0_2, hostOps0_3, hostOps0_4, List.flatten_cons, List.flatten_nil, List.append_nil,
    List.cons_append, List.nil_append]
  after_results_simp
  rfl

set_option maxHeartbeats 2000000 in
/-- The OCR scale. -/
theorem V_og (c : Dev nD) : (V m c main_v45 : S1x768.Idx → Elt F .f32)
    = shapeCast S1x768 (m ((c : Thread nD τ).loc main_arg5)) shapeCasts_S768_S1x768 := by
  dsimp only [V, V0]
  simp only [hostOps0, hostOps0_1, hostOps0_2, hostOps0_3, hostOps0_4, List.flatten_cons, List.flatten_nil, List.append_nil,
    List.cons_append, List.nil_append]
  after_results_simp
  rfl

set_option maxHeartbeats 2000000 in
/-- The OCR shift. -/
theorem V_ob (c : Dev nD) : (V m c main_v46 : S1x768.Idx → Elt F .f32)
    = shapeCast S1x768 (m ((c : Thread nD τ).loc main_arg6)) shapeCasts_S768_S1x768 := by
  dsimp only [V, V0]
  simp only [hostOps0, hostOps0_1, hostOps0_2, hostOps0_3, hostOps0_4, List.flatten_cons, List.flatten_nil, List.append_nil,
    List.cons_append, List.nil_append]
  after_results_simp
  rfl

/-! ## The grid point's batch and position, and its token id -/

/-- The batch of a grid point. -/
abbrev batchOf (i : grid0.Coords) : Fin 16 := i 0
/-- The position of a grid point. -/
abbrev posOf (i : grid0.Coords) : Fin 128 := i 1
/-- The token id at a grid point. -/
abbrev idAt (i : grid0.Coords) : BitVec 32 := Tables.ids m (Tables.pt i)

/-- A grid coordinate as a 32-bit word reads back as itself. -/
theorem toNat_coord (n : Nat) (h : n < 128) : (BitVec.ofNat 32 n).toNat = n := by
  simp only [BitVec.toNat_ofNat]
  show n % 4294967296 = n
  omega

/-- The position window's block index: the point's position on the leading axis. -/
theorem blockIdx2 (i : grid0.Coords) : cc0_transform_2 i = ![(i 1).val, 0, 0] := by
  have h1 : (i 1).val < 128 := (i 1).isLt
  unfold cc0_transform_2
  simp only [toNat_coord _ h1]
  rfl

/-- The output window's block index: the point's batch and position on the two leading axes. -/
theorem blockIdx7 (i : grid0.Coords) : cc0_transform_7 i = ![(i 0).val, (i 1).val, 0, 0] := by
  have h0 : (i 0).val < 128 := Nat.lt_of_lt_of_le (i 0).isLt (by decide)
  have h1 : (i 1).val < 128 := (i 1).isLt
  unfold cc0_transform_7
  simp only [toNat_coord _ h0, toNat_coord _ h1]
  rfl

/-! ## The staged blocks, read at a position -/

/-- The vocabulary block at a point is the vocabulary row the point's id picks. -/
theorem blk_voc (hO : Ok m) (c : Dev nD) (t : Fin (cfgM m hO).N) (p : Fin 6) (q : Fin 128) :
    (iblk m hO c 0 t : Vec F S1x6x128 .f32) (ix3 (0 : Fin 1) p q)
      = m ((c : Thread nD τ).loc main_arg0) (ix2 (vocRow (idAt m (grid0.coords t))) (flat p q)) := by
  unfold iblk
  show (V m c main_v47 : S32000x6x128.Idx → Elt F .f32) ((((cfgM m hO).win 0).blk t).view.emb (ix3 (0 : Fin 1) p q)) = _
  rw [V_voc]
  refine shapeCast_apply _ _ _ _ ?_
  refine (Shape.rowMajor_val_two (d := ![32000, 768]) _).trans ?_
  refine Eq.trans ?_ (Shape.rowMajor_val_three (d := ![32000, 6, 128]) _).symm
  have hb := Tables.blockIdx0 m (grid0.coords t)
  have h0 : cc0_transform_0 k0_off1_inb numel1_S1x1 (tbl m) (grid0.coords t) (0 : Fin 3) = (vocWord (idAt m (grid0.coords t))).toNat := congrFun hb 0
  have h1 : cc0_transform_0 k0_off1_inb numel1_S1x1 (tbl m) (grid0.coords t) (1 : Fin 3) = 0 := congrFun hb 1
  have h2 : cc0_transform_0 k0_off1_inb numel1_S1x1 (tbl m) (grid0.coords t) (2 : Fin 3) = 0 := congrFun hb 2
  refine Eq.trans (?_ : _ = ((cc0_transform_0 k0_off1_inb numel1_S1x1 (tbl m) (grid0.coords t) (0 : Fin 3) * 1 + 1 * 0) * 6 + (cc0_transform_0 k0_off1_inb numel1_S1x1 (tbl m) (grid0.coords t) (1 : Fin 3) * 6 + 1 * p.val)) * 128
      + (cc0_transform_0 k0_off1_inb numel1_S1x1 (tbl m) (grid0.coords t) (2 : Fin 3) * 128 + 1 * q.val)) (by chain_rfl)
  rw [h0, h1, h2]
  show (vocWord (idAt m (grid0.coords t))).toNat * 768 + (p.val * 128 + q.val) = _
  omega

/-- The OCR block at a point is the OCR row the point's id picks, of the point's batch. -/
theorem blk_ocr (hO : Ok m) (c : Dev nD) (t : Fin (cfgM m hO).N) (p : Fin 6) (q : Fin 128) :
    (iblk m hO c 1 t : Vec F S1x1x6x128 .f32) (ix4 (0 : Fin 1) (0 : Fin 1) p q)
      = m ((c : Thread nD τ).loc main_arg1)
          (ix3 (batchOf (grid0.coords t)) (ocrRow (idAt m (grid0.coords t))) (flat p q)) := by
  unfold iblk
  show (V m c main_v48 : S16x50x6x128.Idx → Elt F .f32)
    ((((cfgM m hO).win 1).blk t).view.emb (ix4 (0 : Fin 1) (0 : Fin 1) p q)) = _
  rw [V_ocr]
  refine shapeCast_apply _ _ _ _ ?_
  refine (Shape.rowMajor_val_three (d := ![16, 50, 768]) _).trans ?_
  refine Eq.trans ?_ (Shape.rowMajor_val_four (d := ![16, 50, 6, 128]) _).symm
  have hb := Tables.blockIdx1 m (grid0.coords t)
  have h0 : cc0_transform_1 k0_off1_inb numel1_S1x1 (tbl m) (grid0.coords t) (0 : Fin 4) = ((grid0.coords t) 0).val := congrFun hb 0
  have h1 : cc0_transform_1 k0_off1_inb numel1_S1x1 (tbl m) (grid0.coords t) (1 : Fin 4) = (ocrWord (idAt m (grid0.coords t))).toNat := congrFun hb 1
  have h2 : cc0_transform_1 k0_off1_inb numel1_S1x1 (tbl m) (grid0.coords t) (2 : Fin 4) = 0 := congrFun hb 2
  have h3 : cc0_transform_1 k0_off1_inb numel1_S1x1 (tbl m) (grid0.coords t) (3 : Fin 4) = 0 := congrFun hb 3
  refine Eq.trans (?_ : _ = (((cc0_transform_1 k0_off1_inb numel1_S1x1 (tbl m) (grid0.coords t) (0 : Fin 4) * 1 + 1 * 0) * 50 + (cc0_transform_1 k0_off1_inb numel1_S1x1 (tbl m) (grid0.coords t) (1 : Fin 4) * 1 + 1 * 0)) * 6 + (cc0_transform_1 k0_off1_inb numel1_S1x1 (tbl m) (grid0.coords t) (2 : Fin 4) * 6 + 1 * p.val)) * 128
      + (cc0_transform_1 k0_off1_inb numel1_S1x1 (tbl m) (grid0.coords t) (3 : Fin 4) * 128 + 1 * q.val)) (by chain_rfl)
  rw [h0, h1, h2, h3]
  show (((grid0.coords t) 0).val * 50 + (ocrWord (idAt m (grid0.coords t))).toNat) * 768 + (p.val * 128 + q.val) = _
  omega

/-- The position block at a point is the point's row of the position table @main computed. -/
theorem blk_pos (hO : Ok m) (c : Dev nD) (t : Fin (cfgM m hO).N) (p : Fin 6) (q : Fin 128) :
    (iblk m hO c 2 t : Vec F S1x6x128 .f32) (ix3 (0 : Fin 1) p q)
      = (V m c main_v42 : S128x768.Idx → Elt F .f32) (ix2 (posOf (grid0.coords t)) (flat p q)) := by
  unfold iblk
  show (V m c main_v49 : S128x6x128.Idx → Elt F .f32) ((((cfgM m hO).win 2).blk t).view.emb (ix3 (0 : Fin 1) p q)) = _
  rw [V_pos]
  refine shapeCast_apply _ _ _ _ ?_
  refine (Shape.rowMajor_val_two (d := ![128, 768]) _).trans ?_
  refine Eq.trans ?_ (Shape.rowMajor_val_three (d := ![128, 6, 128]) _).symm
  have hb := blockIdx2 (grid0.coords t)
  have h0 : cc0_transform_2 (grid0.coords t) (0 : Fin 3) = ((grid0.coords t) 1).val := congrFun hb 0
  have h1 : cc0_transform_2 (grid0.coords t) (1 : Fin 3) = 0 := congrFun hb 1
  have h2 : cc0_transform_2 (grid0.coords t) (2 : Fin 3) = 0 := congrFun hb 2
  refine Eq.trans (?_ : _ = ((cc0_transform_2 (grid0.coords t) (0 : Fin 3) * 1 + 1 * 0) * 6 + (cc0_transform_2 (grid0.coords t) (1 : Fin 3) * 6 + 1 * p.val)) * 128
      + (cc0_transform_2 (grid0.coords t) (2 : Fin 3) * 128 + 1 * q.val)) (by chain_rfl)
  rw [h0, h1, h2]
  show ((grid0.coords t) 1).val * 768 + (p.val * 128 + q.val) = _
  omega

/-- The vocabulary scale's block is the scale vector, at every point. -/
theorem blk_vg (hO : Ok m) (c : Dev nD) (t : Fin (cfgM m hO).N) (k : Fin 768) :
    (iblk m hO c 3 t : Vec F S1x768 .f32) (ix2 (0 : Fin 1) k) = m ((c : Thread nD τ).loc main_arg3) (ix1 k) := by
  unfold iblk
  show (V m c main_v43 : S1x768.Idx → Elt F .f32) ((((cfgM m hO).win 3).blk t).view.emb (ix2 (0 : Fin 1) k)) = _
  rw [V_vg]
  refine shapeCast_apply _ _ _ _ ?_
  refine (Shape.rowMajor_val_one (d := ![768]) _).trans ?_
  refine Eq.trans ?_ (Shape.rowMajor_val_two (d := ![1, 768]) _).symm
  refine Eq.trans (?_ : _ = (cc0_transform_3 (grid0.coords t) (0 : Fin 2) * 1 + 1 * 0) * 768
      + (cc0_transform_3 (grid0.coords t) (1 : Fin 2) * 768 + 1 * k.val)) (by chain_rfl)
  show k.val = (0 * 1 + 1 * 0) * 768 + (0 * 768 + 1 * k.val)
  omega

/-- The vocabulary shift's block is the shift vector. -/
theorem blk_vb (hO : Ok m) (c : Dev nD) (t : Fin (cfgM m hO).N) (k : Fin 768) :
    (iblk m hO c 4 t : Vec F S1x768 .f32) (ix2 (0 : Fin 1) k) = m ((c : Thread nD τ).loc main_arg4) (ix1 k) := by
  unfold iblk
  show (V m c main_v44 : S1x768.Idx → Elt F .f32) ((((cfgM m hO).win 4).blk t).view.emb (ix2 (0 : Fin 1) k)) = _
  rw [V_vb]
  refine shapeCast_apply _ _ _ _ ?_
  refine (Shape.rowMajor_val_one (d := ![768]) _).trans ?_
  refine Eq.trans ?_ (Shape.rowMajor_val_two (d := ![1, 768]) _).symm
  refine Eq.trans (?_ : _ = (cc0_transform_4 (grid0.coords t) (0 : Fin 2) * 1 + 1 * 0) * 768
      + (cc0_transform_4 (grid0.coords t) (1 : Fin 2) * 768 + 1 * k.val)) (by chain_rfl)
  show k.val = (0 * 1 + 1 * 0) * 768 + (0 * 768 + 1 * k.val)
  omega

/-- The OCR scale's block is the scale vector. -/
theorem blk_og (hO : Ok m) (c : Dev nD) (t : Fin (cfgM m hO).N) (k : Fin 768) :
    (iblk m hO c 5 t : Vec F S1x768 .f32) (ix2 (0 : Fin 1) k) = m ((c : Thread nD τ).loc main_arg5) (ix1 k) := by
  unfold iblk
  show (V m c main_v45 : S1x768.Idx → Elt F .f32) ((((cfgM m hO).win 5).blk t).view.emb (ix2 (0 : Fin 1) k)) = _
  rw [V_og]
  refine shapeCast_apply _ _ _ _ ?_
  refine (Shape.rowMajor_val_one (d := ![768]) _).trans ?_
  refine Eq.trans ?_ (Shape.rowMajor_val_two (d := ![1, 768]) _).symm
  refine Eq.trans (?_ : _ = (cc0_transform_5 (grid0.coords t) (0 : Fin 2) * 1 + 1 * 0) * 768
      + (cc0_transform_5 (grid0.coords t) (1 : Fin 2) * 768 + 1 * k.val)) (by chain_rfl)
  show k.val = (0 * 1 + 1 * 0) * 768 + (0 * 768 + 1 * k.val)
  omega

/-- The OCR shift's block is the shift vector. -/
theorem blk_ob (hO : Ok m) (c : Dev nD) (t : Fin (cfgM m hO).N) (k : Fin 768) :
    (iblk m hO c 6 t : Vec F S1x768 .f32) (ix2 (0 : Fin 1) k) = m ((c : Thread nD τ).loc main_arg6) (ix1 k) := by
  unfold iblk
  show (V m c main_v46 : S1x768.Idx → Elt F .f32) ((((cfgM m hO).win 6).blk t).view.emb (ix2 (0 : Fin 1) k)) = _
  rw [V_ob]
  refine shapeCast_apply _ _ _ _ ?_
  refine (Shape.rowMajor_val_one (d := ![768]) _).trans ?_
  refine Eq.trans ?_ (Shape.rowMajor_val_two (d := ![1, 768]) _).symm
  refine Eq.trans (?_ : _ = (cc0_transform_6 (grid0.coords t) (0 : Fin 2) * 1 + 1 * 0) * 768
      + (cc0_transform_6 (grid0.coords t) (1 : Fin 2) * 768 + 1 * k.val)) (by chain_rfl)
  show k.val = (0 * 1 + 1 * 0) * 768 + (0 * 768 + 1 * k.val)
  omega

/-! ## The flag word -/

/-- One bit widened to a word is not zero exactly when the bit is set. -/
theorem ne_zero_widened (f : BitVec 1) : Scalar.cmpi .ne (f.setWidth 32) 0#32 = f := by
  rcases BitVec.eq_zero_or_eq_one f with rfl | rfl <;> decide

/-- The flag word the body reads at a point is the widened bit "the point's id is at least the vocabulary size". -/
theorem flag_word (c : Dev nD) (i : grid0.Coords) :
    flagAt c i (tbl m 2) = (isOcr (idAt m i)).setWidth 32 :=
  (Tables.at2_eq m i).trans (Tables.tbl2_eq m (Tables.pt i))

end Cert.KernelIdeal.KValue

end
-- ==== Proof.KFinal.lean ====
/-
  The kernel program's result is the specification.

  The call runs its body once per grid point (b, t), b a batch and t a position, and each point writes back one
  [1 × 1 × 6 × 128] block of the call's [16 × 128 × 6 × 128] result array: block (b, t). What the point stores at
  (p, q) is the body's function of its staged blocks (KPayload), and the staged blocks are the rows the point's
  token id picks (KBlocks), so the stored value is the specification's entry (b, t, p·128 + q). The 2048 blocks
  tile the array, each written once, so the array ends holding the specification everywhere; @main then lays it
  out [16 × 128 × 768], which only renames entry (b, t, p, q) as (b, t, p·128 + q).
-/
import proofs.«416861_j10866267259469_3_alg».proof.Proof.Patched.KernelIdeal.Frame
import proofs.«416861_j10866267259469_3_alg».proof.Proof.KBlocks
import Idealize.ShloMosaic.Lib.Pipeline.Value
import Idealize.ShloMosaic.Lib.Pipeline.Regions
import Idealize.ShloMosaic.Lib.StableHlo.Run
import Idealize.ShloMosaic.Lib.ValueLayout

noncomputable section

namespace Cert.KernelIdeal.KValue

open Cert.KernelIdeal Cert.KernelIdeal.Gen Cert.KernelIdeal.GenP Cert.Embed
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- The specification of the kernel program's arguments at batch b, position t, entry p·128 + q: the call's result
    array holds it at (b, t, p, q). The position table is the one @main computed before the call. -/
def entry (c : Dev nD) (b : Fin 16) (t : Fin 128) (p : Fin 6) (q : Fin 128) : EReal :=
  embed (m ((c : Thread nD τ).loc main_arg0)) (m ((c : Thread nD τ).loc main_arg1)) (Tables.ids m)
    (m ((c : Thread nD τ).loc main_arg3)) (m ((c : Thread nD τ).loc main_arg4)) (m ((c : Thread nD τ).loc main_arg5))
    (m ((c : Thread nD τ).loc main_arg6)) (V m c main_v42 : S128x768.Idx → EReal) (ix3 b t (flat p q))

/-- What the point's output block holds at (p, q) is the specification at the point's batch and position. -/
theorem point_eq (hO : Ok m) (c : Dev nD) (t : Fin (cfgM m hO).N) (p : Fin 6) (q : Fin 128) :
    (outsAt0 m hO c t : Vec Ideal S1x1x6x128 .f32) (ix4 (0 : Fin 1) (0 : Fin 1) p q)
      = entry m c (batchOf (grid0.coords t)) (posOf (grid0.coords t)) p q := by
  unfold outsAt0
  refine (congrFun (out_eq (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (iblk m hO c 6 t) (tbl m 0) (tbl m 1) (tbl m 2))
    (ix4 (0 : Fin 1) (0 : Fin 1) p q)).trans ?_
  refine (body_apply (iblk m hO c 0 t) (iblk m hO c 1 t) (iblk m hO c 2 t) (iblk m hO c 3 t) (iblk m hO c 4 t) (iblk m hO c 5 t) (iblk m hO c 6 t) (flagAt c (grid0.coords t) (tbl m 2)) p q).trans ?_
  rw [flag_word, ne_zero_widened]
  unfold entry embed
  simp only [blk_voc, blk_ocr, blk_pos, blk_vg, blk_vb, blk_og, blk_ob, flat_line_lane]
/-- The call's result array, entry by entry. -/
def result4 (c : Dev nD) : S16x128x6x128.Idx → EReal := fun j => entry m c (j 0) (j 1) (j 2) (j 3)

/-- A position of a [1 × 1 × 6 × 128] block is (0, 0, p, q). -/
theorem eq_pq (y : S1x1x6x128.Idx) : y = ix4 (0 : Fin 1) (0 : Fin 1) (y 2) (y 3) := by
  have h := eq_ix4 y
  have b0 : (y 0).val < 1 := (y 0).isLt
  have b1 : (y 1).val < 1 := (y 1).isLt
  have h0 : y 0 = (0 : Fin 1) := Fin.ext (by show (y 0).val = 0; omega)
  have h1 : y 1 = (0 : Fin 1) := Fin.ext (by show (y 1).val = 0; omega)
  rw [h0, h1] at h
  exact h

/-- WHAT POINT t WRITES BACK is its block of the result array. -/
theorem flushed_eq (hO : Ok m) (c : Dev nD) (t : Fin (cfgM m hO).N) :
    (dats m hO 0 c).flushed 7 t = (((cfgM m hO).win 7).blk t).view.read (Elt Ideal) (result4 m c) := by
  show ((cfgM m hO).win 7).cut (grid0.coords t) ((dats m hO 0 c).after 7 t) = _
  rw [after0_7]
  refine funext fun (y : S1x1x6x128.Idx) => ?_
  obtain ⟨p, q, rfl⟩ : ∃ (p : Fin 6) (q : Fin 128), y = ix4 (0 : Fin 1) (0 : Fin 1) p q := ⟨y 2, y 3, eq_pq y⟩
  refine Eq.trans (by chain_rfl : _ = (outsAt0 m hO c t : Vec Ideal S1x1x6x128 .f32) (ix4 (0 : Fin 1) (0 : Fin 1) p q)) ?_
  rw [point_eq]
  have hb := blockIdx7 (grid0.coords t)
  have e0 : ((((cfgM m hO).win 7).blk t).view.emb (ix4 (0 : Fin 1) (0 : Fin 1) p q) : S16x128x6x128.Idx) (0 : Fin 4) = batchOf (grid0.coords t) := Fin.ext (by
    refine Eq.trans (by chain_rfl : _ = cc0_transform_7 (grid0.coords t) (0 : Fin 4) * 1 + 1 * 0) ?_
    rw [congrFun hb 0]
    show ((grid0.coords t) 0).val * 1 + 1 * 0 = ((grid0.coords t) 0).val
    omega)
  have e1 : ((((cfgM m hO).win 7).blk t).view.emb (ix4 (0 : Fin 1) (0 : Fin 1) p q) : S16x128x6x128.Idx) (1 : Fin 4) = posOf (grid0.coords t) := Fin.ext (by
    refine Eq.trans (by chain_rfl : _ = cc0_transform_7 (grid0.coords t) (1 : Fin 4) * 1 + 1 * 0) ?_
    rw [congrFun hb 1]
    show ((grid0.coords t) 1).val * 1 + 1 * 0 = ((grid0.coords t) 1).val
    omega)
  have e2 : ((((cfgM m hO).win 7).blk t).view.emb (ix4 (0 : Fin 1) (0 : Fin 1) p q) : S16x128x6x128.Idx) (2 : Fin 4) = p := Fin.ext (by
    refine Eq.trans (by chain_rfl : _ = cc0_transform_7 (grid0.coords t) (2 : Fin 4) * 6 + 1 * p.val) ?_
    rw [congrFun hb 2]
    show 0 * 6 + 1 * p.val = _
    omega)
  have e3 : ((((cfgM m hO).win 7).blk t).view.emb (ix4 (0 : Fin 1) (0 : Fin 1) p q) : S16x128x6x128.Idx) (3 : Fin 4) = q := Fin.ext (by
    refine Eq.trans (by chain_rfl : _ = cc0_transform_7 (grid0.coords t) (3 : Fin 4) * 128 + 1 * q.val) ?_
    rw [congrFun hb 3]
    show 0 * 128 + 1 * q.val = _
    omega)
  show _ = entry m c (((((cfgM m hO).win 7).blk t).view.emb (ix4 (0 : Fin 1) (0 : Fin 1) p q) : S16x128x6x128.Idx) (0 : Fin 4)) (((((cfgM m hO).win 7).blk t).view.emb (ix4 (0 : Fin 1) (0 : Fin 1) p q) : S16x128x6x128.Idx) (1 : Fin 4)) (((((cfgM m hO).win 7).blk t).view.emb (ix4 (0 : Fin 1) (0 : Fin 1) p q) : S16x128x6x128.Idx) (2 : Fin 4)) (((((cfgM m hO).win 7).blk t).view.emb (ix4 (0 : Fin 1) (0 : Fin 1) p q) : S16x128x6x128.Idx) (3 : Fin 4))
  rw [e0, e1, e2, e3]

set_option backward.isDefEq.respectTransparency.types false in
/-- EVERY entry of the result array is in the block some point writes back: entry (b, t, p, q) in point b·128 + t's. -/
theorem covered (hO : Ok m) (c : Dev nD) (i : S16x128x6x128.Idx) :
    ∃ t : Fin (cfgM m hO).N, ((cfgM m hO).win 7).flush t = true ∧ i ∈ (((cfgM m hO).win 7).blk t).view.set := by
  have hN : grid0.N = 2048 := N_0
  have hb0 : (i 0).val < 16 := (i 0).isLt
  have hb1 : (i 1).val < 128 := (i 1).isLt
  have hb2 : (i 2).val < 6 := (i 2).isLt
  have hb3 : (i 3).val < 128 := (i 3).isLt
  let tp : Fin grid0.N := ⟨(i 0).val * 128 + (i 1).val, by rw [hN]; omega⟩
  refine ⟨tp, flush0_7 (adm m hO) tp, ?_⟩
  have s0 : grid0.stride 0 = 128 := by decide
  have s1 : grid0.stride 1 = 1 := by decide
  have c0 : ((grid0.coords tp) 0).val = (i 0).val := by
    show ((i 0).val * 128 + (i 1).val) / grid0.stride 0 % 16 = _
    rw [s0]; omega
  have c1 : ((grid0.coords tp) 1).val = (i 1).val := by
    show ((i 0).val * 128 + (i 1).val) / grid0.stride 1 % 128 = _
    rw [s1]; omega
  have hb := blockIdx7 (grid0.coords tp)
  show i ∈ ((View.whole main_v50).slice (((cfgM m hO).win 7).rect tp)).set
  rw [View.set_slice_whole]
  refine Rect.mem_set_unit.mpr ?_
  intro a
  match a with
  | ⟨0, _⟩ =>
    refine Eq.mp (by chain_rfl : (cc0_transform_7 (grid0.coords tp) (0 : Fin 4) * 1 ≤ (i 0).val ∧ (i 0).val < cc0_transform_7 (grid0.coords tp) (0 : Fin 4) * 1 + 1) = _) ?_
    rw [congrFun hb 0]
    show ((grid0.coords tp) 0).val * 1 ≤ (i 0).val ∧ (i 0).val < ((grid0.coords tp) 0).val * 1 + 1
    omega
  | ⟨1, _⟩ =>
    refine Eq.mp (by chain_rfl : (cc0_transform_7 (grid0.coords tp) (1 : Fin 4) * 1 ≤ (i 1).val ∧ (i 1).val < cc0_transform_7 (grid0.coords tp) (1 : Fin 4) * 1 + 1) = _) ?_
    rw [congrFun hb 1]
    show ((grid0.coords tp) 1).val * 1 ≤ (i 1).val ∧ (i 1).val < ((grid0.coords tp) 1).val * 1 + 1
    omega
  | ⟨2, _⟩ =>
    refine Eq.mp (by chain_rfl : (cc0_transform_7 (grid0.coords tp) (2 : Fin 4) * 6 ≤ (i 2).val ∧ (i 2).val < cc0_transform_7 (grid0.coords tp) (2 : Fin 4) * 6 + 6) = _) ?_
    rw [congrFun hb 2]
    show 0 * 6 ≤ (i 2).val ∧ (i 2).val < 0 * 6 + 6
    omega
  | ⟨3, _⟩ =>
    refine Eq.mp (by chain_rfl : (cc0_transform_7 (grid0.coords tp) (3 : Fin 4) * 128 ≤ (i 3).val ∧ (i 3).val < cc0_transform_7 (grid0.coords tp) (3 : Fin 4) * 128 + 128) = _) ?_
    rw [congrFun hb 3]
    show 0 * 128 ≤ (i 3).val ∧ (i 3).val < 0 * 128 + 128
    omega

/-- THE CALL'S RESULT ARRAY after the run is the specification, entry by entry. -/
theorem final (hO : Ok m) (c : Dev nD) : (dats m hO 0 c).arrAt 7 (cfgM m hO).N = result4 m c :=
  (dats m hO 0 c).arrAt_eq_of_cover 7 (result4 m c) (fun t _ => flushed_eq m hO c t) (covered m hO c)

/-- The kernel program's result: the specification of its arguments, with the position table @main computed. -/
def result (c : Dev nD) : S16x128x768.Idx → EReal :=
  embed (m ((c : Thread nD τ).loc main_arg0)) (m ((c : Thread nD τ).loc main_arg1)) (Tables.ids m)
    (m ((c : Thread nD τ).loc main_arg3)) (m ((c : Thread nD τ).loc main_arg4)) (m ((c : Thread nD τ).loc main_arg5))
    (m ((c : Thread nD τ).loc main_arg6)) (V m c main_v42 : S128x768.Idx → EReal)

/-- After the call @main lays the call's array out [16 × 128 × 768]: entry (b, t, h) is the array's
    (b, t, h / 128, h mod 128), the specification at (b, t, h). -/
theorem tail_eq (hO : Ok m) (c : Dev nD) :
    Pipeline.afterTail pcfgs (fun _ => adm m hO) (dats m hO) 0 (V0 m) [hostOps1] c main_v51 = result m c := by
  have hA : (Pipeline.withArrays (Pipeline.pin pcfgs (fun _ => adm m hO) 0).spec c (V0 m c)
      (fun w => (dats m hO 0 c).arrAt w (Pipeline.pin pcfgs (fun _ => adm m hO) 0).N) (Proc.tc.devRef main_v50) : S16x128x6x128.Idx → EReal) = result4 m c :=
    (Pipeline.withArrays_arr (Pipeline.pin pcfgs (fun _ => adm m hO) 0).spec winFacts0.arr_inj c (V0 m c) _ 7).trans
      (final m hO c)
  unfold Pipeline.afterTail
  show StableHlo.after hostOps1 _ (Proc.devRef .tc main_v51) = _
  after_results
  funext j
  obtain ⟨b, t, h, rfl⟩ : ∃ (b : Fin 16) (t : Fin 128) (h : Fin 768), j = ix3 b t h := ⟨j 0, j 1, j 2, eq_ix3 j⟩
  show shapeCast S16x128x768 (Pipeline.withArrays (Pipeline.pin pcfgs (fun _ => adm m hO) 0).spec c (V0 m c)
      (fun w => (dats m hO 0 c).arrAt w (Pipeline.pin pcfgs (fun _ => adm m hO) 0).N) (Proc.tc.devRef main_v50) : S16x128x6x128.Idx → EReal) shapeCasts_S16x128x6x128_S16x128x768 (ix3 b t h) = _
  rw [hA]
  refine (shapeCast_apply (result4 m c) shapeCasts_S16x128x6x128_S16x128x768 (ix3 b t h) (ix4 b t (line h) (lane h)) ?_).trans ?_
  · rw [Shape.rowMajor_val_four, Shape.rowMajor_val_three]
    show ((b.val * 128 + t.val) * 6 + h.val / 128) * 128 + h.val % 128 = (b.val * 128 + t.val) * 768 + h.val
    omega
  · show entry m c b t (line h) (lane h) = _
    unfold entry result
    rw [flat_line_lane]

/-- THE RUN, READ: every weakly fair execution of the kernel program ends with its result at the specification of
    its arguments, and the arguments unchanged. -/
theorem run (hO : Ok m) : θ_run defs (onTc (τ := τ) (main (F := Ideal))) ⟨m, fun _ => 0, ρ⟩ fun r => ∀ c : Dev nD,
      r.2.mem ((c.tc : Thread nD τ).loc main_v51) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    ⟨((h c).2 main_v51 (by decide : main_v51 ∈ Pipeline.restRefs sig spec0)).trans (tail_eq m hO c),
      ((h c).2 main_arg0 (by decide : main_arg0 ∈ Pipeline.restRefs sig spec0)).trans (W_main_arg0 m hO (dats m hO) c),
      ((h c).2 main_arg1 (by decide : main_arg1 ∈ Pipeline.restRefs sig spec0)).trans (W_main_arg1 m hO (dats m hO) c),
      ((h c).2 main_arg2 (by decide : main_arg2 ∈ Pipeline.restRefs sig spec0)).trans (W_main_arg2 m hO (dats m hO) c),
      ((h c).2 main_arg3 (by decide : main_arg3 ∈ Pipeline.restRefs sig spec0)).trans (W_main_arg3 m hO (dats m hO) c),
      ((h c).2 main_arg4 (by decide : main_arg4 ∈ Pipeline.restRefs sig spec0)).trans (W_main_arg4 m hO (dats m hO) c),
      ((h c).2 main_arg5 (by decide : main_arg5 ∈ Pipeline.restRefs sig spec0)).trans (W_main_arg5 m hO (dats m hO) c),
      ((h c).2 main_arg6 (by decide : main_arg6 ∈ Pipeline.restRefs sig spec0)).trans (W_main_arg6 m hO (dats m hO) c),
      ((h c).2 main_arg7 (by decide : main_arg7 ∈ Pipeline.restRefs sig spec0)).trans (W_main_arg7 m hO (dats m hO) c),
      ((h c).2 main_arg8 (by decide : main_arg8 ∈ Pipeline.restRefs sig spec0)).trans (W_main_arg8 m hO (dats m hO) c),
      ((h c).2 main_arg9 (by decide : main_arg9 ∈ Pipeline.restRefs sig spec0)).trans (W_main_arg9 m hO (dats m hO) c),
      ((h c).2 main_arg10 (by decide : main_arg10 ∈ Pipeline.restRefs sig spec0)).trans (W_main_arg10 m hO (dats m hO) c)⟩)
    (run_main m ρ hO)

end Cert.KernelIdeal.KValue

end
-- ==== Proof.LibRowGatherScatter.lean ====
/-
  A host gather of whole rows and a host scatter-add of whole rows, read at one element.

  `table[idx]` over an [N × C] table with an [E × 1] column of start indices prints as a `stablehlo.gather` whose
  row axis is collapsed and start-indexed and whose column axis is the one offset axis: result row `e` is the table's
  row at `idx e` read signed and clamped into the table.

  `zeros.at[idx].add(upd)` over rows prints as a `stablehlo.scatter` with an `add` body whose row axis is inserted and
  scatter-indexed and whose column axis is the one update-window axis: at the extended reals element (i, q) ends at its
  old value plus the sum of `upd (e, q)` over the rows `e` whose index word reads `i` as a signed integer; a row whose
  index leaves the operand contributes nothing.
-/
import Idealize.ShloMosaic.PureOps.Ideal
import Idealize.ShloMosaic.Lib.ValueIdx

noncomputable section

namespace Cert.Gcn

open Idealize.ShloMosaic Idealize.ShloMosaic.ValueIdx

/-- Result element (e, q) of a row gather is the table's element (row, q), `row` the start index of `e` read signed and
    clamped into `[0, N − 1]`. -/
theorem gather_rows {α : Type} {N E C w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (q : Fin C) (hN : 0 < N) :
    Host.gather d x idx (ix2 e q) = x (ix2 ⟨min (idx (ix2 e (0 : Fin 1))).toInt.toNat (N - 1), by omega⟩ q) := by
  unfold Host.gather
  congr 1
  funext a
  apply Fin.ext
  have hb : ∀ a : Fin 2, a ∉ d.operandBatchingDims := fun a => by rw [hob]; exact List.not_mem_nil
  -- the result's one batch axis is axis 0, its one offset axis is axis 1
  have he : ∀ X : Fin 2, X ∈ d.batchDims → ((ix2 e q : (⟨2, ![E, C]⟩ : Shape).Idx) X).val = e.val := by
    intro X hX
    have hX' : X ∈ (⟨2, ![E, C]⟩ : Shape).kept [1] := by rw [← hoff]; exact hX
    have h0 : X = 0 := by
      simp [Shape.kept, List.mem_filter] at hX'
      omega
    subst h0; rfl
  have hq : ∀ X : Fin 2, X ∈ d.offsetDims → ((ix2 e q : (⟨2, ![E, C]⟩ : Shape).Idx) X).val = q.val := by
    intro X hX
    rw [hoff] at hX
    obtain rfl := List.mem_singleton.1 hX
    rfl
  match a with
  | ⟨0, _⟩ =>
    -- the row axis: start-indexed and collapsed, so the clamped start alone
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e q) idx 0 + d.batchCoord (ix2 e q) 0 + d.offCoord (ix2 e q) 0 = min (idx (ix2 e (0 : Fin 1))).toInt.toNat (N - 1)
    rw [GatherDims.batchCoord_eq_zero _ _ _ (hb _), GatherDims.offCoord_eq_zero _ _ _ hk]
    simp only [Nat.add_zero]
    unfold GatherDims.start
    rw [dif_pos hm]
    show min (idx _).toInt.toNat (N - d.sliceSizes 0) = min (idx (ix2 e (0 : Fin 1))).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      exact he _ (List.getElem_mem _)
    | ⟨1, _⟩ =>
      unfold GatherDims.siIdx
      rw [dif_pos (by rw [hivd])]
      apply Fin.ext
      show List.idxOf (0 : Fin 2) d.startIndexMap = 0
      rw [hsim]; simp
  | ⟨1, _⟩ =>
    -- the column axis: not start-indexed, kept, so the result's coordinate on the offset axis
    have hk : (1 : Fin 2) ∈ d.sKept := by rw [GatherDims.mem_sKept, hcoll, hob]; simp
    have hm : (1 : Fin 2) ∉ d.startIndexMap := by rw [hsim]; simp
    show d.start (ix2 e q) idx 1 + d.batchCoord (ix2 e q) 1 + d.offCoord (ix2 e q) 1 = q.val
    rw [GatherDims.batchCoord_eq_zero _ _ _ (hb _), Nat.add_zero]
    unfold GatherDims.start GatherDims.offCoord
    rw [dif_neg hm, dif_pos hk, Nat.zero_add]
    exact hq _ (List.getElem_mem _)

/-- Element (i, q) after a row scatter-add at the extended reals: the old value plus the updates of the rows sent to `i`. -/
theorem scatterAdd_rows {N E C w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![E, 1]⟩ w) (upd : (⟨2, ![E, C]⟩ : Shape).Idx → EReal)
    (i : Fin N) (q : Fin C) :
    (Host.scatterAdd (F := Ideal) (φ := .f32) d x idx upd : (⟨2, ![N, C]⟩ : Shape).Idx → EReal) (ix2 i q)
      = x (ix2 i q) + ∑ e ∈ Finset.univ.filter (fun e : Fin E => (idx (ix2 e (0 : Fin 1))).toInt = (i.val : ℤ)), upd (ix2 e q) := by
  -- the updates' one scatter axis is axis 0
  have hus : ∀ X : Fin 2, X ∈ d.uScatter → X = 0 := by
    intro X hX
    have hX' : X ∈ (⟨2, ![E, C]⟩ : Shape).kept [1] := by rw [← huw]; exact hX
    simp [Shape.kept, List.mem_filter] at hX'
    omega
  -- the row axis starts at the row's index word read signed, with no window coordinate (it is inserted)
  have hs0 : ∀ j : (⟨2, ![E, C]⟩ : Shape).Idx, d.start j idx 0 = (idx (ix2 (j 0) (0 : Fin 1))).toInt := by
    intro j
    have hm : (0 : Fin 2) ∈ d.scatterDimsToOperandDims := by rw [hsd]; exact List.mem_singleton.mpr rfl
    have e0 : ∀ X : Fin 2, X ∈ d.uScatter → (j X).val = (j 0).val := fun X hX => by rw [hus X hX]
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      exact e0 _ (List.getElem_mem _)
    | ⟨1, _⟩ =>
      unfold ScatterDims.siIdx
      rw [dif_pos (by rw [hivd])]
      apply Fin.ext
      show List.idxOf (0 : Fin 2) d.scatterDimsToOperandDims = 0
      rw [hsd]; simp
  have hw0 : ∀ j : (⟨2, ![E, C]⟩ : Shape).Idx, d.window j 0 = 0 := by
    intro j
    have hk : (0 : Fin 2) ∉ d.sKept := by simp [ScatterDims.sKept, Shape.kept, hiw]
    unfold ScatterDims.window
    rw [dif_neg hk]
  -- the column axis starts at 0 (the map does not name it), its window coordinate the update's column
  have hs1 : ∀ j : (⟨2, ![E, C]⟩ : Shape).Idx, d.start j idx 1 = 0 := by
    intro j
    have hm : (1 : Fin 2) ∉ d.scatterDimsToOperandDims := by rw [hsd]; simp
    unfold ScatterDims.start
    rw [dif_neg hm]
  have hw1 : ∀ j : (⟨2, ![E, C]⟩ : Shape).Idx, d.window j 1 = (j 1).val := by
    intro j
    have hk : (1 : Fin 2) ∈ d.sKept := by simp [ScatterDims.sKept, Shape.kept, hiw]
    have e1 : ∀ X : Fin 2, X ∈ d.updateWindowDims → (j X).val = (j 1).val := fun X hX => by
      rw [huw] at hX
      rw [List.mem_singleton.1 hX]
    unfold ScatterDims.window
    rw [dif_pos hk]
    exact e1 _ (List.getElem_mem _)
  -- an update lands at (i, q) exactly when its row's index word reads i and its column is q
  have key : ∀ j : (⟨2, ![E, C]⟩ : Shape).Idx, d.resultIdx? j idx = some (ix2 i q) ↔
      (idx (ix2 (j 0) (0 : Fin 1))).toInt = (i.val : ℤ) ∧ j 1 = q := by
    intro j
    unfold ScatterDims.resultIdx?
    constructor
    · intro h
      split at h
      · rename_i hr
        have hf := Option.some.inj h
        have h0 : (d.start j idx 0 + d.window j 0).toNat = i.val := congrArg Fin.val (congrFun hf 0)
        have h1 : (d.start j idx 1 + d.window j 1).toNat = q.val := congrArg Fin.val (congrFun hf 1)
        have r0 := (hr 0).1
        rw [hs0, hw0] at h0 r0
        rw [hs1, hw1] at h1
        exact ⟨by omega, Fin.ext (by omega)⟩
      · exact absurd h (by simp)
    · rintro ⟨h0, h1⟩
      have hr : ∀ a, 0 ≤ d.start j idx a + d.window j a ∧
          d.start j idx a + d.window j a < (⟨2, ![N, C]⟩ : Shape).size a := by
        intro a
        match a with
        | ⟨0, _⟩ =>
          show 0 ≤ d.start j idx 0 + d.window j 0 ∧ d.start j idx 0 + d.window j 0 < (N : ℤ)
          rw [hs0, hw0, h0]
          have := i.isLt
          omega
        | ⟨1, _⟩ =>
          show 0 ≤ d.start j idx 1 + d.window j 1 ∧ d.start j idx 1 + d.window j 1 < (C : ℤ)
          rw [hs1, hw1]
          have := idx2_lt1 j
          omega
      rw [dif_pos hr]
      congr 1
      funext a
      match a with
      | ⟨0, _⟩ =>
        apply Fin.ext
        show (d.start j idx 0 + d.window j 0).toNat = i.val
        rw [hs0, hw0, h0]
        omega
      | ⟨1, _⟩ =>
        apply Fin.ext
        show (d.start j idx 1 + d.window j 1).toNat = q.val
        rw [hs1, hw1, ← h1]
        omega
  show Ideal.hostScatterAdd d x idx upd (ix2 i q) = _
  unfold Ideal.hostScatterAdd
  congr 1
  -- re-index the updates landing at (i, q) by their row
  refine Finset.sum_bij' (fun j _ => (j 0 : Fin E)) (fun e _ => ix2 e q) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key _).2 ⟨(Finset.mem_filter.1 he).2, rfl⟩⟩
  · intro j hj
    have hq := ((key j).1 (Finset.mem_filter.1 hj).2).2
    rw [← hq]
    exact (eq_ix2 j).symm
  · intro e _
    rfl
  · intro j hj
    have hq := ((key j).1 (Finset.mem_filter.1 hj).2).2
    rw [← hq]
    exact congrArg upd (eq_ix2 j)

end Cert.Gcn

end
-- ==== Proof.PosTable.lean ====
/-
  The position table: both programs compute the same [128 × 768] array on the host.

  Position `t` has a type id: the bit "t ≥ 32000" widened to a word and wrapped python-style (a negative word has
  the table's length 2 added). The table is the position embedding plus the type embedding's row at that id,
  layer-normalised over its 768 entries: the row's mean and variance are sums divided by 768, the row minus its mean
  is scaled by the inverse root of the variance plus ε and by the scale vector, and shifted by the shift vector.

  The two programs apply the same operations in the same order, with one difference: the reference reads the position
  embedding through a row gather by the indices 0 … 127 (the iota, wrapped python-style by the table's length 128).
  No index is negative, so the wrap keeps each, and a row gather by the identity indices returns the table. With
  that gather removed the two chains of operations are one term.
-/
import proofs.«416861_j10866267259469_3_alg».proof.Proof.Patched.KernelIdeal.Frame.Runs
import proofs.«416861_j10866267259469_3_alg».proof.Proof.Gen.ReferenceIdeal.Read
import proofs.«416861_j10866267259469_3_alg».proof.Proof.LibRowGatherScatter
import Idealize.ShloMosaic.Lib.StableHlo.Run
import Idealize.ShloMosaic.Lib.StableHlo.Predicate
import Idealize.ShloMosaic.Lib.ValueIdx

noncomputable section

namespace Cert.KernelIdeal.KValue

open Cert.KernelIdeal Cert.KernelIdeal.Gen Cert.KernelIdeal.GenP Idealize.ShloMosaic Idealize.ShloMosaic.TcCoe Idealize.SL.Sem Idealize.ShloMosaic.ValueIdx Idealize.ShloMosaic.StableHlo

/-! ## The table as one term, at any float instance -/

section Generic

variable {F : FTy → Type} [FloatOps F]

/-- The position table as the kernel program's host prefix computes it, operation by operation: the type id of a
    position is the bit "position ≥ 32000" widened to a word and wrapped; its row of the type table is added to the
    position embedding, and the sum is layer-normalised over its 768 entries. -/
def posK (x7 : S128x768.Idx → Elt F .f32) (x8 : S2x768.Idx → Elt F .f32) (x9 x10 : S768.Idx → Elt F .f32) :
    S128x768.Idx → Elt F .f32 :=
  have v7 : (⟨S128, .i32⟩ : BufTy).Contents (Elt F) := iotaInDim S128 32 0
  have c_5 : (⟨S_, .i32⟩ : BufTy).Contents (Elt F) := constantI S_ 32 32000#32
  have v8 : (⟨S128, .i32⟩ : BufTy).Contents (Elt F) := broadcastInDim S128 ![] bcast_S_S128 c_5
  have v9 : (⟨S128, .i1⟩ : BufTy).Contents (Elt F) := cmpi .sge v7 v8
  have v10 : (⟨S128, .i32⟩ : BufTy).Contents (Elt F) := extui 32 v9 natLt_1_32
  have c_6 : (⟨S_, .i32⟩ : BufTy).Contents (Elt F) := constantI S_ 32 0#32
  have v11 : (⟨S128, .i32⟩ : BufTy).Contents (Elt F) := broadcastInDim S128 ![] bcast_S_S128 c_6
  have v12 : (⟨S128, .i1⟩ : BufTy).Contents (Elt F) := cmpi .slt v10 v11
  have c_7 : (⟨S_, .i32⟩ : BufTy).Contents (Elt F) := constantI S_ 32 2#32
  have v13 : (⟨S128, .i32⟩ : BufTy).Contents (Elt F) := broadcastInDim S128 ![] bcast_S_S128 c_7
  have v14 : (⟨S128, .i32⟩ : BufTy).Contents (Elt F) := addi v10 v13
  have v15 : (⟨S128, .i32⟩ : BufTy).Contents (Elt F) := select v12 v14 v10
  have v16 : (⟨S128x1, .i32⟩ : BufTy).Contents (Elt F) := broadcastInDim S128x1 ![0] bcast_S128_S128x1_0 v15
  have v17 : (⟨S128x768, .f32⟩ : BufTy).Contents (Elt F) := Host.gather gather_S2x768_S128x1_S128x768_1_0_n_n_0_1_1768 x8 v16
  have v18 : (⟨S128x768, .f32⟩ : BufTy).Contents (Elt F) := addf x7 v17
  have cst : (⟨S_, .f32⟩ : BufTy).Contents (Elt F) := constant S_ .f32 0x00000000#32
  have v19 : (⟨S128, .f32⟩ : BufTy).Contents (Elt F) := Host.reduceAdd v18 cst reducesTo_S128x768_S128_d1 h_S_
  have v20 : (⟨S128x1, .f32⟩ : BufTy).Contents (Elt F) := broadcastInDim S128x1 ![0] bcast_S128_S128x1_0 v19
  have cst_8 : (⟨S_, .f32⟩ : BufTy).Contents (Elt F) := constant S_ .f32 0x44400000#32
  have v21 : (⟨S128x1, .f32⟩ : BufTy).Contents (Elt F) := broadcastInDim S128x1 ![] bcast_S_S128x1 cst_8
  have v22 : (⟨S128x1, .f32⟩ : BufTy).Contents (Elt F) := Host.divf v20 v21
  have v23 : (⟨S128x768, .f32⟩ : BufTy).Contents (Elt F) := broadcastInDim S128x768 ![0, 1] bcast_S128x1_S128x768_0_1 v22
  have v24 : (⟨S128x768, .f32⟩ : BufTy).Contents (Elt F) := subf v18 v23
  have v25 : (⟨S128x768, .f32⟩ : BufTy).Contents (Elt F) := mulf v24 v24
  have cst_9 : (⟨S_, .f32⟩ : BufTy).Contents (Elt F) := constant S_ .f32 0x00000000#32
  have v26 : (⟨S128, .f32⟩ : BufTy).Contents (Elt F) := Host.reduceAdd v25 cst_9 reducesTo_S128x768_S128_d1 h_S_
  have v27 : (⟨S128x1, .f32⟩ : BufTy).Contents (Elt F) := broadcastInDim S128x1 ![0] bcast_S128_S128x1_0 v26
  have cst_10 : (⟨S_, .f32⟩ : BufTy).Contents (Elt F) := constant S_ .f32 0x44400000#32
  have v28 : (⟨S128x1, .f32⟩ : BufTy).Contents (Elt F) := broadcastInDim S128x1 ![] bcast_S_S128x1 cst_10
  have v29 : (⟨S128x1, .f32⟩ : BufTy).Contents (Elt F) := Host.divf v27 v28
  have v30 : (⟨S128x768, .f32⟩ : BufTy).Contents (Elt F) := broadcastInDim S128x768 ![0, 1] bcast_S128x1_S128x768_0_1 v22
  have v31 : (⟨S128x768, .f32⟩ : BufTy).Contents (Elt F) := subf v18 v30
  have cst_11 : (⟨S_, .f32⟩ : BufTy).Contents (Elt F) := constant S_ .f32 0x3727C5AC#32
  have v32 : (⟨S128x1, .f32⟩ : BufTy).Contents (Elt F) := broadcastInDim S128x1 ![] bcast_S_S128x1 cst_11
  have v33 : (⟨S128x1, .f32⟩ : BufTy).Contents (Elt F) := addf v29 v32
  have v34 : (⟨S128x1, .f32⟩ : BufTy).Contents (Elt F) := Host.rsqrt v33
  have v35 : (⟨S128x768, .f32⟩ : BufTy).Contents (Elt F) := broadcastInDim S128x768 ![0, 1] bcast_S128x1_S128x768_0_1 v34
  have v36 : (⟨S128x768, .f32⟩ : BufTy).Contents (Elt F) := mulf v31 v35
  have v37 : (⟨S1x768, .f32⟩ : BufTy).Contents (Elt F) := broadcastInDim S1x768 ![1] bcast_S768_S1x768_1 x9
  have v38 : (⟨S128x768, .f32⟩ : BufTy).Contents (Elt F) := broadcastInDim S128x768 ![0, 1] bcast_S1x768_S128x768_0_1 v37
  have v39 : (⟨S128x768, .f32⟩ : BufTy).Contents (Elt F) := mulf v36 v38
  have v40 : (⟨S1x768, .f32⟩ : BufTy).Contents (Elt F) := broadcastInDim S1x768 ![1] bcast_S768_S1x768_1 x10
  have v41 : (⟨S128x768, .f32⟩ : BufTy).Contents (Elt F) := broadcastInDim S128x768 ![0, 1] bcast_S1x768_S128x768_0_1 v40
  addf v39 v41

/-! ## The kernel program's buffer holds that term -/

variable (m : (ℓ : Loc nD τ sig) → Buf (Elt F) ℓ)

set_option maxHeartbeats 2000000 in  -- the host prefix is 2 + 6 + 5 + 6 + 55 operations long: reading one buffer after them exceeds the default budget
/-- When the region is entered, the buffer of the position table holds `posK` of the four arguments it is made from:
    each host operation's result is its function of its operands' contents, and no later operation writes it. -/
theorem V_posK (c : Dev nD) :
    (V m c main_v42 : S128x768.Idx → Elt F .f32)
      = posK (m ((c : Thread nD τ).loc main_arg7)) (m ((c : Thread nD τ).loc main_arg8))
          (m ((c : Thread nD τ).loc main_arg9)) (m ((c : Thread nD τ).loc main_arg10)) := by
  dsimp only [V, V0]
  simp only [hostOps0, hostOps0_1, hostOps0_2, hostOps0_3, hostOps0_4, List.flatten_cons, List.flatten_nil, List.append_nil, List.cons_append, List.nil_append]
  after_results_simp
  rfl

/-! ## The reference's stages are that term over the gathered position embedding -/

/-- The reference's stages from the iota to the layer-normalised sum are the same operations in the same order, but
    for its reading the position embedding through a gather. -/
theorem ref_posK (x7 : S128x768.Idx → Elt F .f32) (x8 : S2x768.Idx → Elt F .f32) (x9 x10 : S768.Idx → Elt F .f32) :
    Cert.ReferenceIdeal.Read.val_main_v107 (F := F) x7 x8 x9 x10
      = posK (Cert.ReferenceIdeal.Read.val_main_v72 (F := F) x7) x8 x9 x10 := by
  unfold posK
  simp only [Cert.ReferenceIdeal.Read.val_main_v107, Cert.ReferenceIdeal.Read.val_main_v106, Cert.ReferenceIdeal.Read.val_main_v105, Cert.ReferenceIdeal.Read.val_main_v104, Cert.ReferenceIdeal.Read.val_main_v103, Cert.ReferenceIdeal.Read.val_main_v102, Cert.ReferenceIdeal.Read.val_main_v101, Cert.ReferenceIdeal.Read.val_main_v100, Cert.ReferenceIdeal.Read.val_main_v99, Cert.ReferenceIdeal.Read.val_main_v98, Cert.ReferenceIdeal.Read.val_main_v97, Cert.ReferenceIdeal.Read.val_main_cst_25, Cert.ReferenceIdeal.Read.val_main_v96, Cert.ReferenceIdeal.Read.val_main_v95, Cert.ReferenceIdeal.Read.val_main_v94, Cert.ReferenceIdeal.Read.val_main_v93, Cert.ReferenceIdeal.Read.val_main_cst_24, Cert.ReferenceIdeal.Read.val_main_v92, Cert.ReferenceIdeal.Read.val_main_v91, Cert.ReferenceIdeal.Read.val_main_cst_23, Cert.ReferenceIdeal.Read.val_main_v90, Cert.ReferenceIdeal.Read.val_main_v89, Cert.ReferenceIdeal.Read.val_main_v88, Cert.ReferenceIdeal.Read.val_main_v87, Cert.ReferenceIdeal.Read.val_main_v86, Cert.ReferenceIdeal.Read.val_main_cst_22, Cert.ReferenceIdeal.Read.val_main_v85, Cert.ReferenceIdeal.Read.val_main_v84, Cert.ReferenceIdeal.Read.val_main_cst_21, Cert.ReferenceIdeal.Read.val_main_v83, Cert.ReferenceIdeal.Read.val_main_v82, Cert.ReferenceIdeal.Read.val_main_v81, Cert.ReferenceIdeal.Read.val_main_v80, Cert.ReferenceIdeal.Read.val_main_v79, Cert.ReferenceIdeal.Read.val_main_v78, Cert.ReferenceIdeal.Read.val_main_c_20, Cert.ReferenceIdeal.Read.val_main_v77, Cert.ReferenceIdeal.Read.val_main_v76, Cert.ReferenceIdeal.Read.val_main_c_19, Cert.ReferenceIdeal.Read.val_main_v75, Cert.ReferenceIdeal.Read.val_main_v74, Cert.ReferenceIdeal.Read.val_main_v73, Cert.ReferenceIdeal.Read.val_main_c_18, Cert.ReferenceIdeal.Read.val_main_v65]
  rfl

/-! ## The reference's gather of the position embedding is the identity -/

/-- Row `e` of the index column the reference gathers the position embedding by holds the word `e`: the iota is not
    negative, so the python-style wrap keeps it. -/
theorem idx_v71 (e : Fin 128) :
    Cert.ReferenceIdeal.Read.val_main_v71 (F := F) (ix2 e (0 : Fin 1)) = BitVec.ofNat 32 e.val := by
  have he : e.val < 2 ^ 31 := by have := e.isLt; omega
  have hc : IntOp.cmpi .slt (BitVec.ofNat 32 e.val) 0#32 ≠ 1#1 := by
    intro h
    have := (Predicate.slt_ofNat_iff e.val 0 he (by decide)).1 h
    omega
  rw [Cert.ReferenceIdeal.Read.val_main_v71_apply, Cert.ReferenceIdeal.Read.val_main_v70_apply,
    Cert.ReferenceIdeal.Read.val_main_v67_apply, Cert.ReferenceIdeal.Read.val_main_v65_apply,
    Cert.ReferenceIdeal.Read.val_main_v66_apply, Cert.ReferenceIdeal.Read.val_main_c_16_apply]
  show Scalar.select (IntOp.cmpi .slt (BitVec.ofNat 32 e.val) 0#32) _ (BitVec.ofNat 32 e.val) = _
  exact if_neg hc

/-- A row gather by the indices 0 … 127 returns the table. -/
theorem v72_id (x7 : S128x768.Idx → Elt F .f32) : Cert.ReferenceIdeal.Read.val_main_v72 (F := F) x7 = x7 := by
  funext j
  obtain ⟨e, q, rfl⟩ : ∃ e q, j = ix2 e q := ⟨j 0, j 1, eq_ix2 j⟩
  have he : e.val < 2 ^ 31 := by have := e.isLt; omega
  unfold Cert.ReferenceIdeal.Read.val_main_v72
  rw [Cert.Gcn.gather_rows Cert.ReferenceIdeal.gather_S128x768_S128x1_S128x768_1_0_n_n_0_1_1768 rfl rfl rfl rfl rfl x7 _ e q (by decide)]
  refine congrArg x7 (congrArg (fun r => ix2 r q) (Fin.ext ?_))
  show min (Cert.ReferenceIdeal.Read.val_main_v71 (F := F) (ix2 e (0 : Fin 1))).toInt.toNat (128 - 1) = e.val
  rw [idx_v71, Predicate.toInt_ofNat_small _ he]
  have := e.isLt
  omega

end Generic

/-! ## The two tables are equal -/

/-- The kernel program's position table, when its region is entered, is the reference's stage of the same name: the
    layer-normalised sum of the position embedding and the type embedding's rows. -/
theorem posTable_eq (m : (ℓ : Loc nD τ sig) → Buf (Elt Ideal) ℓ) (c : Dev nD) :
    (V m c main_v42 : S128x768.Idx → EReal)
      = Cert.ReferenceIdeal.Read.val_main_v107 (F := Ideal) (m ((c : Thread nD τ).loc main_arg7)) (m ((c : Thread nD τ).loc main_arg8)) (m ((c : Thread nD τ).loc main_arg9)) (m ((c : Thread nD τ).loc main_arg10)) := by
  refine (V_posK m c).trans ?_
  rw [ref_posK, v72_id]

end Cert.KernelIdeal.KValue

end
-- ==== Proof.RefVoc.lean ====
/-
  The vocabulary branch of the reference, read at one element.

  The reference layer-normalises every row of the [32000 × 768] vocabulary table, clips each token id into
  [0, 31999], and gathers rows of the normalised table at the clipped ids. LayerNorm acts on each row by itself, so
  element (b, t, h) of the gathered array is entry h of the layer-normalised row that the clipped id of token (b, t)
  picks out of the table.

  The steps: the mean and the variance of a table row as the generated stages state them; entry (r, h) of the
  normalised table; the clipped id, which the python-style wrap of a negative index leaves alone because a clipped
  word is never negative; a gather of whole rows at an [B × T × 1] array of start indices read at one element; and
  the four together.
-/
import proofs.«416861_j10866267259469_3_alg».proof.Proof.Gen.ReferenceIdeal.Read
import proofs.«416861_j10866267259469_3_alg».proof.Proof.Spec
import Idealize.ShloMosaic.PureOps.Ideal
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.TcCoe
  Idealize.ShloMosaic.ValueIdx

/-! ## A gather of whole rows at a [B × T × 1] array of start indices -/

/-- Reading a list at the position an element has in a second list, once both lists are known. -/
theorem voc_getElem_idxOf_of_eq {β γ : Type} [DecidableEq γ] {l l' : List β} {m m' : List γ} (hl : l = l') (hm : m = m')
    (c : γ) (v : β) (hv : ∀ h', l'[m'.idxOf c]'h' = v) (h : m.idxOf c < l.length) : l[m.idxOf c]'h = v := by
  subst hl hm; exact hv h

/-- `table[idx]` over an [N × C] table with a [B × T × 1] array of start indices: the row axis is collapsed and
    start-indexed, the column axis is the one offset axis, and the result's two leading axes are batch axes. Result
    element (b, t, q) is the table's element (row, q), `row` the start index of (b, t) read signed and clamped into
    `[0, N − 1]`. -/
theorem voc_gather_rows {α : Type} {N B T C w : Nat}
    (d : GatherDims ⟨2, ![N, C]⟩ ⟨3, ![B, T, 1]⟩ ⟨3, ![B, T, C]⟩)
    (hoff : d.offsetDims = [2]) (hcoll : d.collapsedSliceDims = [0]) (hob : d.operandBatchingDims = [])
    (hsim : d.startIndexMap = [0]) (hivd : d.indexVectorDim = 2)
    (x : (⟨2, ![N, C]⟩ : Shape).Idx → α) (idx : IVec ⟨3, ![B, T, 1]⟩ w) (b : Fin B) (t : Fin T) (q : Fin C) (hN : 0 < N) :
    Host.gather d x idx (ix3 b t q)
      = x (ix2 ⟨min (idx (ix3 b t (0 : Fin 1))).toInt.toNat (N - 1), by omega⟩ q) := by
  unfold Host.gather
  congr 1
  funext a
  apply Fin.ext
  have hb : ∀ a : Fin 2, a ∉ d.operandBatchingDims := fun a => by rw [hob]; exact List.not_mem_nil
  -- the result's batch axes are its axes 0 and 1; the start indices' axes 0 and 1 are the ones they read
  have hbd : d.batchDims = [0, 1] := by
    show (⟨3, ![B, T, C]⟩ : Shape).kept d.offsetDims = [0, 1]
    rw [hoff]; rfl
  have hsk : d.siKept = [0, 1] := by
    show (List.finRange 3).filter (fun c : Fin 3 => decide (c.val ≠ d.indexVectorDim)) = [0, 1]
    rw [hivd]; rfl
  match a with
  | ⟨0, _⟩ =>
    -- the row axis: start-indexed and collapsed, so the clamped start alone
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    -- the start index of (b, t, q) is read at (b, t, 0)
    have hsi : d.siIdx (ix3 b t q) ⟨d.startIndexMap.idxOf 0, List.idxOf_lt_length_iff.2 hm⟩ = ix3 b t (0 : Fin 1) := by
      funext c
      match c with
      | ⟨0, hc⟩ =>
        unfold GatherDims.siIdx
        rw [dif_neg (by rw [hivd]; simp)]
        unfold GatherDims.siCoord
        apply Fin.ext
        simp only [Fin.val_cast]
        rw [voc_getElem_idxOf_of_eq hbd hsk (⟨0, hc⟩ : Fin 3) (0 : Fin 3) (fun _ => rfl)]
      | ⟨1, hc⟩ =>
        unfold GatherDims.siIdx
        rw [dif_neg (by rw [hivd]; simp)]
        unfold GatherDims.siCoord
        apply Fin.ext
        simp only [Fin.val_cast]
        rw [voc_getElem_idxOf_of_eq hbd hsk (⟨1, hc⟩ : Fin 3) (1 : Fin 3) (fun _ => rfl)]
      | ⟨2, _⟩ =>
        unfold GatherDims.siIdx
        rw [dif_pos (by rw [hivd])]
        apply Fin.ext
        show List.idxOf (0 : Fin 2) d.startIndexMap = 0
        rw [hsim]; simp
    show d.start (ix3 b t q) idx 0 + d.batchCoord (ix3 b t q) 0 + d.offCoord (ix3 b t q) 0
      = min (idx (ix3 b t (0 : Fin 1))).toInt.toNat (N - 1)
    rw [GatherDims.batchCoord_eq_zero _ _ _ (hb _), GatherDims.offCoord_eq_zero _ _ _ hk]
    simp only [Nat.add_zero]
    unfold GatherDims.start
    rw [dif_pos hm, hsi]
    show min (idx _).toInt.toNat (N - d.sliceSizes 0) = min (idx (ix3 b t (0 : Fin 1))).toInt.toNat (N - 1)
    rw [hsl]
  | ⟨1, _⟩ =>
    -- the column axis: not start-indexed, kept, so the result's coordinate on the offset axis
    have hk : (1 : Fin 2) ∈ d.sKept := by rw [GatherDims.mem_sKept, hcoll, hob]; simp
    have hm : (1 : Fin 2) ∉ d.startIndexMap := by rw [hsim]; simp
    have hq : ∀ X : Fin 3, X ∈ d.offsetDims → ((ix3 b t q : (⟨3, ![B, T, C]⟩ : Shape).Idx) X).val = q.val := by
      intro X hX
      rw [hoff] at hX
      obtain rfl := List.mem_singleton.1 hX
      rfl
    show d.start (ix3 b t q) idx 1 + d.batchCoord (ix3 b t q) 1 + d.offCoord (ix3 b t q) 1 = q.val
    rw [GatherDims.batchCoord_eq_zero _ _ _ (hb _), Nat.add_zero]
    unfold GatherDims.start GatherDims.offCoord
    rw [dif_neg hm, dif_pos hk, Nat.zero_add]
    exact hq _ (List.getElem_mem _)

/-! ## The layer-normalised table, one row at a time -/

/-- The mean the reference takes of table row `r`: the row's sum over 768. -/
theorem voc_mean_row (x0 : (⟨S32000x768, .f32⟩ : BufTy).Contents (Elt Ideal)) (r : Fin 32000) :
    val_main_v3 (F := Ideal) x0 (ix2 r (0 : Fin 1)) = Cert.Embed.rowMean (fun k => x0 (ix2 r k)) := by
  rw [val_main_v3_apply, val_main_v1_apply, val_main_v0_apply, val_main_v2_apply, val_main_cst_0_apply,
    val_main_cst_apply]
  simp only [Ideal.hostDivf_def, Ideal.ofBits_def, Ideal.ofBits_zero_f32, zero_add]
  unfold Cert.Embed.rowMean Cert.Embed.width
  refine congrArg (fun s => Ideal.div s _) (Finset.sum_congr rfl fun k _ => congrArg x0 ?_)
  funext a
  match a with
  | ⟨0, _⟩ => rfl
  | ⟨1, _⟩ => rfl

/-- The variance the reference takes of table row `r`: the sum of the squared deviations from the mean, over 768. -/
theorem voc_var_row (x0 : (⟨S32000x768, .f32⟩ : BufTy).Contents (Elt Ideal)) (r : Fin 32000) :
    val_main_v10 (F := Ideal) x0 (ix2 r (0 : Fin 1)) = Cert.Embed.rowVar (fun k => x0 (ix2 r k)) := by
  rw [val_main_v10_apply, val_main_v8_apply, val_main_v7_apply, val_main_v9_apply, val_main_cst_2_apply,
    val_main_cst_1_apply]
  simp only [Ideal.hostDivf_def, Ideal.ofBits_def, Ideal.ofBits_zero_f32, zero_add]
  unfold Cert.Embed.rowVar Cert.Embed.width
  refine congrArg (fun s => Ideal.div s _) (Finset.sum_congr rfl fun k _ => ?_)
  -- the summand at column k is the square of entry (r, k) less the row's mean
  have hi : idx_main_v7 (idx_main_v8 (ix2 r (0 : Fin 1))) k = ix2 r k := by
    funext a
    match a with
    | ⟨0, _⟩ => rfl
    | ⟨1, _⟩ => rfl
  have hj : idx_main_v4 (ix2 r k) = ix2 r (0 : Fin 1) := by
    funext a
    match a with
    | ⟨0, _⟩ => rfl
    | ⟨1, _⟩ => rfl
  rw [hi, val_main_v6_apply, val_main_v5_apply, val_main_v4_apply, hj, voc_mean_row]
  simp only [Ideal.mulf_def, Ideal.subf_def]

/-- Entry (r, h) of the layer-normalised table is entry `h` of the layer-normalised row `r`. -/
theorem voc_table_row (x0 : (⟨S32000x768, .f32⟩ : BufTy).Contents (Elt Ideal))
    (x3 x4 : (⟨S768, .f32⟩ : BufTy).Contents (Elt Ideal)) (r : Fin 32000) (h : Fin 768) :
    val_main_v23 (F := Ideal) x0 x3 x4 (ix2 r h)
      = Cert.Embed.lnRow (fun k => x0 (ix2 r k)) (fun k => x3 (ix1 k)) (fun k => x4 (ix1 k)) h := by
  -- the mean and the inverse root are read at (r, 0), the scale and the shift at h
  have h11 : idx_main_v11 (ix2 r h) = ix2 r (0 : Fin 1) := by
    funext a
    match a with
    | ⟨0, _⟩ => rfl
    | ⟨1, _⟩ => rfl
  have h16 : idx_main_v16 (ix2 r h) = ix2 r (0 : Fin 1) := by
    funext a
    match a with
    | ⟨0, _⟩ => rfl
    | ⟨1, _⟩ => rfl
  have h19 : idx_main_v18 (idx_main_v19 (ix2 r h)) = ix1 h := by
    funext a
    match a with
    | ⟨0, _⟩ => rfl
  have h22 : idx_main_v21 (idx_main_v22 (ix2 r h)) = ix1 h := by
    funext a
    match a with
    | ⟨0, _⟩ => rfl
  rw [val_main_v23_apply, val_main_v20_apply, val_main_v17_apply, val_main_v12_apply, val_main_v11_apply, h11,
    voc_mean_row, val_main_v16_apply, h16, val_main_v15_apply, val_main_v14_apply, voc_var_row, val_main_v13_apply,
    val_main_cst_3_apply, val_main_v19_apply, val_main_v18_apply, h19, val_main_v22_apply, val_main_v21_apply, h22]
  simp only [Ideal.addf_def, Ideal.mulf_def, Ideal.subf_def, Ideal.hostUnary_rsqrt_def, Ideal.ofBits_def]
  rfl

/-! ## The row a token id picks -/

/-- A signed word that is not negative is not below zero. -/
theorem voc_slt_zero (v : BitVec 32) (hv : 0 ≤ v.toInt) : IntOp.cmpi .slt v 0#32 = 0#1 := by
  have h0 : (0#32 : BitVec 32).toInt = 0 := by decide
  have hs : v.slt 0#32 = false := by
    simp only [BitVec.slt, h0, decide_eq_false_iff_not]
    omega
  show BitVec.ofBool (v.slt 0#32) = 0#1
  rw [hs]
  rfl

/-- The reference's clip of a token id to `[0, 31999]`. -/
theorem voc_clip_word (x2 : (⟨S16x128, .i32⟩ : BufTy).Contents (Elt Ideal)) (i : S16x128.Idx) :
    val_main_v50 (F := Ideal) x2 i = Cert.Embed.vocWord (x2 i) := by
  rw [val_main_v50_apply, val_main_call0_v4_apply, val_main_call0_v3_apply, val_main_c_10_apply,
    val_main_call0_v2_apply, val_main_call0_v1_apply, val_main_call0_v0_apply, val_main_c_9_apply]
  rfl

/-- The wrap of a negative index leaves the clipped id alone: a clipped word is never negative. -/
theorem voc_index_word (x2 : (⟨S16x128, .i32⟩ : BufTy).Contents (Elt Ideal)) (i : S16x128.Idx) :
    val_main_v55 (F := Ideal) x2 i = Cert.Embed.vocWord (x2 i) := by
  rw [val_main_v55_apply, val_main_v52_apply, val_main_v51_apply, val_main_c_11_apply, voc_clip_word,
    voc_slt_zero _ (Cert.Embed.vocWord_range _).1]
  exact select_zero _ _

/-! ## The gathered rows -/

/-- Element (b, t, h) of the vocabulary branch: entry `h` of the layer-normalised vocabulary row of token (b, t). -/
theorem voc_rows (x0 : (⟨S32000x768, .f32⟩ : BufTy).Contents (Elt Ideal)) (x2 : (⟨S16x128, .i32⟩ : BufTy).Contents (Elt Ideal)) (x3 x4 : (⟨S768, .f32⟩ : BufTy).Contents (Elt Ideal)) (b : Fin 16) (t : Fin 128) (h : Fin 768) :
    val_main_v57 (F := Ideal) x0 x2 x3 x4 (ix3 b t h)
      = Cert.Embed.lnRow (fun k => x0 (ix2 (Cert.Embed.vocRow (x2 (ix2 b t))) k)) (fun k => x3 (ix1 k)) (fun k => x4 (ix1 k)) h := by
  -- the start index of (b, t) is the clipped id of token (b, t)
  have hw : val_main_v56 (F := Ideal) x2 (ix3 b t (0 : Fin 1)) = Cert.Embed.vocWord (x2 (ix2 b t)) := by
    have hi : idx_main_v56 (ix3 b t (0 : Fin 1)) = ix2 b t := by
      funext a
      match a with
      | ⟨0, _⟩ => rfl
      | ⟨1, _⟩ => rfl
    rw [val_main_v56_apply, voc_index_word, hi]
  unfold val_main_v57
  rw [voc_gather_rows gather_S32000x768_S16x128x1_S16x128x768_2_0_n_n_0_2_1768 rfl rfl rfl rfl rfl
    (val_main_v23 (F := Ideal) x0 x3 x4) (val_main_v56 (F := Ideal) x2) b t h (by decide)]
  -- clamped into the table, the clipped id is the vocabulary row itself
  have hr : (⟨min (val_main_v56 (F := Ideal) x2 (ix3 b t (0 : Fin 1))).toInt.toNat (32000 - 1), by omega⟩ : Fin 32000)
      = Cert.Embed.vocRow (x2 (ix2 b t)) := by
    apply Fin.ext
    show min (val_main_v56 (F := Ideal) x2 (ix3 b t (0 : Fin 1))).toInt.toNat (32000 - 1)
      = (Cert.Embed.vocWord (x2 (ix2 b t))).toNat
    rw [hw]
    have := Cert.Embed.vocWord_range (x2 (ix2 b t))
    omega
  rw [hr, voc_table_row]

end Cert.ReferenceIdeal.RefValue

end
-- ==== Proof.RefOcr.lean ====
/-
  The OCR branch of the reference, read at one element.

  The reference layer-normalises the whole [16 × 50 × 768] OCR table over its last axis, forms for every token the
  word `clip (id − 32000) 0 49`, and reads the normalised table with `take_along_axis` along the row axis: a gather
  that is batched over the first axis, start-indexed and collapsed on the row axis and offset on the last, under a
  mask that tests the word against `[0, 49]`. The word is clipped, so the mask is everywhere one and the
  "negative index" correction is never taken; what is left is the normalised table's row `ocrRow id` of batch `b`.
  LayerNorm acts on each row by itself, so that row is the layer-normalised row `ocrRow id` of the raw table.
-/
import proofs.«416861_j10866267259469_3_alg».proof.Proof.Gen.ReferenceIdeal.Read
import proofs.«416861_j10866267259469_3_alg».proof.Proof.Spec
import Idealize.ShloMosaic.PureOps.Ideal
import Idealize.ShloMosaic.PureOps.Ideal.Laws
import Idealize.ShloMosaic.Lib.ValueIdx
import Idealize.ShloMosaic.Lib.ReduceAll

noncomputable section

namespace Cert.ReferenceIdeal.RefValue

open Cert.ReferenceIdeal Cert.ReferenceIdeal.Gen Cert.ReferenceIdeal.Read Idealize.ShloMosaic Idealize.ShloMosaic.TcCoe
  Idealize.ShloMosaic.ValueIdx

/-! ## A gather of rows, batched over the first axis -/

/-- `take_along_axis` of a [B × N × C] table along its row axis, at a [B × T × 1] array of start indices: the first
    axis is a batching axis of the operand and of the start indices, the row axis is start-indexed and collapsed,
    the last axis is the one offset axis. Result element (b, t, q) is the table's element (b, row, q), `row` the
    start index of (b, t) read signed and clamped into `[0, N − 1]`. -/
theorem gather_batch_rows {α : Type} {B N T C w : Nat}
    (d : GatherDims ⟨3, ![B, N, C]⟩ ⟨3, ![B, T, 1]⟩ ⟨3, ![B, T, C]⟩)
    (hoff : d.offsetDims = [2]) (hcoll : d.collapsedSliceDims = [1]) (hob : d.operandBatchingDims = [0])
    (hsb : d.startIndicesBatchingDims = [0]) (hsim : d.startIndexMap = [1]) (hivd : d.indexVectorDim = 2)
    (x : (⟨3, ![B, N, C]⟩ : Shape).Idx → α) (idx : IVec ⟨3, ![B, T, 1]⟩ w) (b : Fin B) (t : Fin T) (q : Fin C)
    (hN : 0 < N) :
    Host.gather d x idx (ix3 b t q)
      = x (ix3 b ⟨min (idx (ix3 b t (0 : Fin 1))).toInt.toNat (N - 1), by omega⟩ q) := by
  -- with the six lists known, the dimension numbers are a literal record over the slice sizes
  obtain ⟨od, cd, ob, sb, sm, iv, ss, wf⟩ := d
  simp only at hoff hcoll hob hsb hsim hivd
  subst hoff hcoll hob hsb hsim hivd
  unfold Host.gather
  congr 1
  funext a
  apply Fin.ext
  match a with
  | ⟨0, _⟩ =>
    -- the batch axis: no start, no offset, the result's first coordinate
    have hm : (0 : Fin 3) ∈ ([0] : List (Fin 3)) := List.mem_singleton.mpr rfl
    show GatherDims.start _ (ix3 b t q) idx 0 + GatherDims.batchCoord _ (ix3 b t q) 0
      + GatherDims.offCoord _ (ix3 b t q) 0 = b.val
    rw [GatherDims.start_batching _ _ _ _ hm,
      GatherDims.offCoord_eq_zero _ _ _ (fun h => ((GatherDims.mem_sKept _ _).1 h).2 hm), Nat.zero_add, Nat.add_zero]
    unfold GatherDims.batchCoord
    rw [dif_pos hm]
    rfl
  | ⟨1, _⟩ =>
    -- the row axis: start-indexed and collapsed, so the clamped start alone
    have hb : (1 : Fin 3) ∉ ([0] : List (Fin 3)) := by decide
    have hm : (1 : Fin 3) ∈ ([1] : List (Fin 3)) := List.mem_singleton.mpr rfl
    show GatherDims.start _ (ix3 b t q) idx 1 + GatherDims.batchCoord _ (ix3 b t q) 1
      + GatherDims.offCoord _ (ix3 b t q) 1 = min (idx (ix3 b t (0 : Fin 1))).toInt.toNat (N - 1)
    rw [GatherDims.batchCoord_eq_zero _ _ _ hb,
      GatherDims.offCoord_eq_zero _ _ _ (fun h => ((GatherDims.mem_sKept _ _).1 h).1 hm)]
    simp only [Nat.add_zero]
    unfold GatherDims.start
    rw [dif_pos hm]
    have hsl : ss 1 = 1 := wf.2.2.2.2.2.2.2.2.2.2.2.1 1 hm
    show min (idx _).toInt.toNat (N - ss 1) = min (idx (ix3 b t (0 : Fin 1))).toInt.toNat (N - 1)
    rw [hsl]
    congr 3
    congr 1
    -- the start index of (b, t, q) sits at (b, t, 0)
    funext c
    apply Fin.ext
    match c with
    | ⟨0, _⟩ => rfl
    | ⟨1, _⟩ => rfl
    | ⟨2, _⟩ => rfl
  | ⟨2, _⟩ =>
    -- the column axis: not start-indexed, kept, so the result's coordinate on the offset axis
    have hb : (2 : Fin 3) ∉ ([0] : List (Fin 3)) := by decide
    have hm : (2 : Fin 3) ∉ ([1] : List (Fin 3)) := by decide
    show GatherDims.start _ (ix3 b t q) idx 2 + GatherDims.batchCoord _ (ix3 b t q) 2
      + GatherDims.offCoord _ (ix3 b t q) 2 = q.val
    rw [GatherDims.batchCoord_eq_zero _ _ _ hb, Nat.add_zero]
    unfold GatherDims.start
    rw [dif_neg hm, Nat.zero_add]
    rfl

/-! ## A reduce by `and` over an array of ones -/

/-- A left fold by `and` that starts at 1 and meets only 1s is 1. -/
theorem foldl_andi_one {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, init, h, hl => by
    rw [List.foldl_cons]
    refine foldl_andi_one f l _ ?_ (fun n hn => hl n (List.mem_cons_of_mem _ hn))
    rw [h, hl a List.mem_cons_self]
    rfl

/-- A reduce by `and` from the constant 1 over an array of 1s is 1 at every result index. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl]
  exact foldl_andi_one x _ _ hinit (fun i _ => hx i)

/-! ## The normalised table, one row at a time -/

/-- Element (b, n, h) of the layer-normalised OCR table is entry `h` of the layer-normalised row (b, n): the two
    sums the reference takes over the last axis are the row's sum and the row's sum of squared deviations. -/
theorem table_row (x1 : (⟨S16x50x768, .f32⟩ : BufTy).Contents (Elt Ideal)) (x5 x6 : (⟨S768, .f32⟩ : BufTy).Contents (Elt Ideal))
    (b : Fin 16) (n : Fin 50) (h : Fin 768) :
    val_main_v47 (F := Ideal) x1 x5 x6 (ix3 b n h)
      = Cert.Embed.lnRow (fun k => x1 (ix3 b n k)) (fun k => x5 (ix1 k)) (fun k => x6 (ix1 k)) h := by
  -- where each stage reads its operand, at the indices this element meets
  have e1 : ∀ k : Fin 768, idx_main_v24 (idx_main_v25 (idx_main_v35 (ix3 b n h))) k = ix3 b n k := fun k =>
    funext fun a => by match a with | ⟨0, _⟩ => rfl | ⟨1, _⟩ => rfl | ⟨2, _⟩ => rfl
  have e2 : ∀ k : Fin 768, idx_main_v31 (idx_main_v32 (idx_main_v40 (ix3 b n h))) k = ix3 b n k := fun k =>
    funext fun a => by match a with | ⟨0, _⟩ => rfl | ⟨1, _⟩ => rfl | ⟨2, _⟩ => rfl
  have e3 : ∀ k k' : Fin 768, idx_main_v24 (idx_main_v25 (idx_main_v28 (ix3 b n k))) k' = ix3 b n k' := fun k k' =>
    funext fun a => by match a with | ⟨0, _⟩ => rfl | ⟨1, _⟩ => rfl | ⟨2, _⟩ => rfl
  have e4 : idx_main_v42 (idx_main_v43 (ix3 b n h)) = ix1 h :=
    funext fun a => by match a with | ⟨0, _⟩ => rfl
  have e5 : idx_main_v45 (idx_main_v46 (ix3 b n h)) = ix1 h :=
    funext fun a => by match a with | ⟨0, _⟩ => rfl
  rw [val_main_v47_apply, val_main_v44_apply, val_main_v41_apply, val_main_v36_apply, val_main_v35_apply,
    val_main_v27_apply, val_main_v25_apply, val_main_v24_apply, val_main_v26_apply, val_main_cst_5_apply,
    val_main_cst_4_apply, val_main_v40_apply, val_main_v39_apply, val_main_v38_apply, val_main_v34_apply,
    val_main_v32_apply, val_main_v31_apply, val_main_v33_apply, val_main_cst_7_apply, val_main_cst_6_apply,
    val_main_v37_apply, val_main_cst_8_apply, val_main_v43_apply, val_main_v42_apply, val_main_v46_apply,
    val_main_v45_apply]
  simp only [val_main_v30_apply, val_main_v29_apply, val_main_v28_apply, val_main_v27_apply, val_main_v25_apply,
    val_main_v24_apply, val_main_v26_apply, val_main_cst_5_apply, val_main_cst_4_apply, e1, e2, e3, e4, e5,
    Ideal.ofBits_def, Ideal.addf_def, Ideal.subf_def, Ideal.mulf_def, Ideal.hostDivf_def, Ideal.hostUnary_rsqrt_def,
    Ideal.ofBits_zero_f32, zero_add]
  rfl

/-! ## The index word and the mask -/

/-- The clipped word of token (b, t): the token's id less 32000, clipped to `[0, 49]`. -/
theorem clip_at (x2 : (⟨S16x128, .i32⟩ : BufTy).Contents (Elt Ideal)) (j : S16x128.Idx) :
    val_main_v60 (F := Ideal) x2 j = Cert.Embed.ocrWord (x2 j) := by
  rw [val_main_v60_apply, val_main_call1_v4_apply, val_main_call1_v3_apply, val_main_c_15_apply,
    val_main_call1_v2_apply, val_main_call1_v1_apply, val_main_call1_v0_apply, val_main_c_14_apply,
    val_main_v59_apply, val_main_v58_apply, val_main_c_13_apply]
  rfl

/-- The word `take_along_axis` gathers at: the clipped word is never negative, so the correction by the table's
    height is not taken. -/
theorem word_at (x2 : (⟨S16x128, .i32⟩ : BufTy).Contents (Elt Ideal)) (i : S16x128x1.Idx) :
    val_main_call2_v4 (F := Ideal) x2 i = Cert.Embed.ocrWord (x2 (idx_main_v61 i)) := by
  have h0 : (0#32 : BitVec 32).toInt = 0 := by decide
  have hr := (Cert.Embed.ocrWord_range (x2 (idx_main_v61 i))).1
  rw [val_main_call2_v4_apply, val_main_call2_v1_apply, val_main_v61_apply, clip_at, val_main_call2_v0_apply,
    val_main_call2_c_apply]
  have hc : IntOp.cmpi .slt (Cert.Embed.ocrWord (x2 (idx_main_v61 i))) 0#32 = 0#1 :=
    eq_zero_of_ne_one fun hh => by
      have := IntOp.cmpi_slt.1 hh
      rw [h0] at this
      omega
  rw [hc, select_zero]

/-- The range test of `take_along_axis` holds at every token: the word lies in `[0, 49]`. -/
theorem mask_at (x2 : (⟨S16x128, .i32⟩ : BufTy).Contents (Elt Ideal)) (i : S16x128x1.Idx) :
    val_main_call2_v10 (F := Ideal) x2 i = 1#1 := by
  have h0 : (0#32 : BitVec 32).toInt = 0 := by decide
  have h49 : (49#32 : BitVec 32).toInt = 49 := by decide
  have hr := Cert.Embed.ocrWord_range (x2 (idx_main_v61 i))
  rw [val_main_call2_v10_apply, val_main_call2_v6_apply, val_main_call2_v9_apply, word_at, val_main_call2_v5_apply,
    val_main_call2_c_2_apply, val_main_call2_v8_apply, val_main_call2_v7_apply, val_main_call2_c_1_apply]
  exact IntOp.andi_eq_one.2 ⟨IntOp.cmpi_sge.2 (by rw [h0]; exact hr.1), IntOp.cmpi_sle.2 (by rw [h49]; exact hr.2.1)⟩

/-- The mask reduced over its last axis, of size one, is one at every token. -/
theorem mask_all (x2 : (⟨S16x128, .i32⟩ : BufTy).Contents (Elt Ideal)) (j : S16x128.Idx) :
    val_main_call2_v11 (F := Ideal) x2 j = 1#1 := by
  unfold val_main_call2_v11
  exact reduce_andi_one _ _ _ _ j rfl (mask_at x2)

/-! ## The OCR branch at one element -/

/-- Element (b, t, h) of the OCR branch: entry `h` of the layer-normalised row `ocrRow id` of batch `b`'s table,
    `id` the token's id. -/
theorem ocr_rows (x1 : (⟨S16x50x768, .f32⟩ : BufTy).Contents (Elt Ideal)) (x2 : (⟨S16x128, .i32⟩ : BufTy).Contents (Elt Ideal))
    (x5 x6 : (⟨S768, .f32⟩ : BufTy).Contents (Elt Ideal)) (b : Fin 16) (t : Fin 128) (h : Fin 768) :
    val_main_v62 (F := Ideal) x1 x2 x5 x6 (ix3 b t h)
      = Cert.Embed.lnRow (fun k => x1 (ix3 b (Cert.Embed.ocrRow (x2 (ix2 b t))) k)) (fun k => x5 (ix1 k))
          (fun k => x6 (ix1 k)) h := by
  have ei : idx_main_v61 (ix3 b t (0 : Fin 1)) = ix2 b t :=
    funext fun a => by match a with | ⟨0, _⟩ => rfl | ⟨1, _⟩ => rfl
  -- the mask is one, so the select keeps the gathered element
  rw [val_main_v62_apply, val_main_call2_v13_apply, mask_all, select_one]
  unfold val_main_call2_v12
  -- the gather reads the normalised table at (b, the clamped word, h)
  rw [gather_batch_rows gather_S16x50x768_S16x128x1_S16x128x768_2_1_0_0_1_2_11768 rfl rfl rfl rfl rfl rfl
    (val_main_v47 (F := Ideal) x1 x5 x6) (val_main_call2_v4 (F := Ideal) x2) b t h (by decide)]
  -- the word lies in [0, 49]: the clamp does nothing and the row is `ocrRow`
  have hr := Cert.Embed.ocrWord_range (x2 (ix2 b t))
  have hrow : (⟨min (val_main_call2_v4 (F := Ideal) x2 (ix3 b t (0 : Fin 1))).toInt.toNat (50 - 1), by omega⟩ : Fin 50)
      = Cert.Embed.ocrRow (x2 (ix2 b t)) := by
    apply Fin.ext
    show min (val_main_call2_v4 (F := Ideal) x2 (ix3 b t (0 : Fin 1))).toInt.toNat (50 - 1)
      = (Cert.Embed.ocrWord (x2 (ix2 b t))).toNat
    rw [word_at, ei]
    omega
  rw [hrow]
  exact table_row x1 x5 x6 b (Cert.Embed.ocrRow (x2 (ix2 b t))) h

end Cert.ReferenceIdeal.RefValue

end
-- ==== Proof.RefValue.lean ====
/-
  The reference's result, entry by entry, is the specification.

  The reference picks, for token (b, t), the row of the layer-normalised OCR table of batch b when the token's id is
  at least the vocabulary size and the row of the layer-normalised vocabulary table otherwise, and adds row t of its
  position table, broadcast over the batch. The two picked rows are the specification's `lnRow` of the picked raw
  rows (the vocabulary and OCR branches, proved apart); the choice is the same comparison of the same word.
-/
import proofs.«416861_j10866267259469_3_alg».proof.Proof.Gen.ReferenceIdeal.Read
import proofs.«416861_j10866267259469_3_alg».proof.Proof.Spec
import proofs.«416861_j10866267259469_3_alg».proof.Proof.RefVoc
import proofs.«416861_j10866267259469_3_alg».proof.Proof.RefOcr
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.TcCoe
  Idealize.ShloMosaic.ValueIdx

/-- The reference's result array is the specification of its arguments, with the reference's own position table. -/
theorem ref_eq (x0 : (⟨S32000x768, .f32⟩ : BufTy).Contents (Elt Ideal)) (x1 : (⟨S16x50x768, .f32⟩ : BufTy).Contents (Elt Ideal))
    (x2 : (⟨S16x128, .i32⟩ : BufTy).Contents (Elt Ideal)) (x3 x4 x5 x6 : (⟨S768, .f32⟩ : BufTy).Contents (Elt Ideal))
    (x7 : (⟨S128x768, .f32⟩ : BufTy).Contents (Elt Ideal)) (x8 : (⟨S2x768, .f32⟩ : BufTy).Contents (Elt Ideal))
    (x9 x10 : (⟨S768, .f32⟩ : BufTy).Contents (Elt Ideal)) :
    val_main_v110 (F := Ideal) x0 x1 x2 x3 x4 x5 x6 x7 x8 x9 x10
      = Cert.Embed.embed x0 x1 x2 x3 x4 x5 x6 (val_main_v107 (F := Ideal) x7 x8 x9 x10) := by
  funext j
  obtain ⟨b, t, h, rfl⟩ : ∃ (b : Fin 16) (t : Fin 128) (h : Fin 768), j = ix3 b t h := ⟨j 0, j 1, j 2, eq_ix3 j⟩
  have e1 : idx_main_v63 (idx_main_call3_v0 (ix3 b t h)) = ix2 b t :=
    funext fun a => Fin.ext (by match a with | ⟨0, _⟩ => rfl | ⟨1, _⟩ => rfl)
  have e2 : idx_main_v108 (idx_main_v109 (ix3 b t h)) = ix2 t h :=
    funext fun a => Fin.ext (by match a with | ⟨0, _⟩ => rfl | ⟨1, _⟩ => rfl)
  rw [val_main_v110_apply, val_main_v109_apply, val_main_v108_apply, val_main_v64_apply, val_main_call3_v0_apply,
    val_main_v63_apply, val_main_v49_apply, val_main_v48_apply, voc_rows, ocr_rows, e1, e2]
  rfl

end Cert.ReferenceIdeal.RefValue

end
-- ==== Proof.lean ====
/-
  The certificate's claim: the kernel program and its jnp reference compute the same embeddings.

  Both take a vocabulary table, a per-batch OCR table, token ids, and scales and shifts, and return for every
  token (b, t) the layer-normalised row its id picks — a vocabulary row when the id is below the vocabulary size, an
  OCR row of batch b otherwise, each index clipped into its table — plus row t of a layer-normalised position table.
  The reference normalises both whole tables and then picks rows; the kernel picks the raw rows and normalises only
  those. LayerNorm acts on each row by itself, so the two orders give the same row: both results are the
  specification `Cert.Embed.embed` of the arguments (Spec), the kernel program's by KFinal over the body's value
  and the staged blocks, the reference's by RefValue over its two branches. The two programs' position tables are
  one table (PosTable): the reference reads pos_emb through a gather by the identity indices.

  The three frames: the kernel's index tables are clipped ids, so every table-indexed block lies inside its array
  (Tables), which is the side condition the frame of a call with prefetched tables asks for; the reference has no
  kernel and its frame is its run with the result dropped. The idealization rewrote nothing.
-/
import proofs.«416861_j10866267259469_3_alg».proof.Defs
import proofs.«416861_j10866267259469_3_alg».proof.Proof.Gen.Kernel
import proofs.«416861_j10866267259469_3_alg».proof.Proof.Gen.KernelIdeal
import proofs.«416861_j10866267259469_3_alg».proof.Proof.Gen.ReferenceIdeal
import proofs.«416861_j10866267259469_3_alg».proof.Proof.Gen.Pre_finite_inputs
import proofs.«416861_j10866267259469_3_alg».proof.Proof.Gen.ReferenceIdeal.Run
import proofs.«416861_j10866267259469_3_alg».proof.Proof.Gen.ReferenceIdeal.Read
import proofs.«416861_j10866267259469_3_alg».proof.Proof.Patched.Kernel.Frame
import proofs.«416861_j10866267259469_3_alg».proof.Proof.Patched.KernelIdeal.Frame
import proofs.«416861_j10866267259469_3_alg».proof.Proof.TablesBits
import proofs.«416861_j10866267259469_3_alg».proof.Proof.TablesIdeal
import proofs.«416861_j10866267259469_3_alg».proof.Proof.KFinal
import proofs.«416861_j10866267259469_3_alg».proof.Proof.PosTable
import proofs.«416861_j10866267259469_3_alg».proof.Proof.RefValue
import Idealize.ShloMosaic.Adequacy
import Idealize.ShloMosaic.Init

noncomputable section

namespace Cert.Proof

open Idealize.ShloMosaic Idealize.SL.Sem

/-- The word-level kernel program runs and keeps its arguments: its tables are clipped ids. -/
theorem frame_k : Cert.frame_Kernel := fun m ρ _ => Cert.Kernel.GenP.frame m ρ (Cert.Kernel.Tables.ok m)

/-- The same of the idealized kernel program. -/
theorem frame_ki : Cert.frame_KernelIdeal := fun m ρ _ => Cert.KernelIdeal.GenP.frame m ρ (Cert.KernelIdeal.Tables.ok m)

/-- The reference runs and keeps its arguments: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals both programs end at the specification of arguments that agree. -/
theorem algebraic : Cert.algebraic_KernelIdeal_ReferenceIdeal := by
  intro m ρ m' ρ' _ hagree
  refine ⟨fun c => Cert.KernelIdeal.KValue.result m c, Cert.KernelIdeal.KValue.run m ρ (Cert.KernelIdeal.Tables.ok m), ?_⟩
  refine (θ_run Cert.ReferenceIdeal.defs _ _).mono (fun _ h c => ⟨(h c).1.trans ?_, (h c).2⟩) (Cert.ReferenceIdeal.Value.run (F := Ideal) m' ρ')
  obtain rfl : c = 0 := Subsingleton.elim _ _
  obtain ⟨h0, h1, h2, h3, h4, h5, h6, h7, h8, h9, h10⟩ := hagree 0
  rw [Cert.ReferenceIdeal.Read.val_main_v110_eq, Cert.ReferenceIdeal.RefValue.ref_eq, h0, h1, h2, h3, h4, h5, h6, h7, h8, h9, h10]
  show _ = Cert.KernelIdeal.KValue.result m 0
  unfold Cert.KernelIdeal.KValue.result
  rw [Cert.KernelIdeal.KValue.posTable_eq m 0]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
